-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S50000x32 : Shape := ⟨2, ![50000, 32]⟩
abbrev S2000000x8 : Shape := ⟨2, ![2000000, 8]⟩
abbrev S2000000 : Shape := ⟨1, ![2000000]⟩
abbrev S72x64 : Shape := ⟨2, ![72, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S2000000x8 : S_.BroadcastsInDim S2000000x8 (![] : Fin 0 → Fin S2000000x8.rank)
  reducesTo_S2000000x8_S_d0_1 : S2000000x8.ReducesTo [0, 1] S_
  bcast_S_S72x64 : S_.BroadcastsInDim S72x64 (![] : Fin 0 → Fin S72x64.rank)
  reducesTo_S72x64_S_d0_1 : S72x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x64 : S_.BroadcastsInDim S64x64 (![] : Fin 0 → Fin S64x64.rank)
  reducesTo_S64x64_S_d0_1 : S64x64.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x32 .f32) (main_arg8 : FVec F S32 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S72x64 1) : IVec S_ 1 :=
  let main_c_5 : IVec S_ 1 := constantI S_ 1 1#1
  let main_v17 : IVec S_ 1 := (fun x v => Host.reduce IntOp.andi x v reducesTo_S72x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x32 .f32) (main_arg1 : FVec F S50000x32 .f32) (main_arg2 : FVec F S2000000x8 .f32) (main_arg3 : IVec S2000000 32) (main_arg4 : IVec S2000000 32) (main_arg5 : FVec F S72x64 .f32) (main_arg6 : FVec F S64 .f32) (main_arg7 : FVec F S64x32 .f32) (main_arg8 : FVec F S32 .f32) (main_arg9 : FVec F S64x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S2000000x8 .f32 := Host.absf main_arg2
  let main_cst_2 : FVec F S_ .f32 := constant S_ .f32 0x7F800000#32
  let main_v10 : FVec F S2000000x8 .f32 := broadcastInDim S2000000x8 ![] bcast_S_S2000000x8 main_cst_2
  let main_v11 : IVec S2000000x8 1 := cmpf .olt main_v9 main_v10
  let main_c_3 : IVec S_ 1 := constantI S_ 1 1#1
  let main_v12 : IVec S_ 1 := (fun x v => Host.reduce IntOp.andi x v reducesTo_S2000000x8_S_d0_1 h_S_) main_v11 main_c_3
  let main_v13 : IVec S_ 1 := andi main_v8 main_v12
  let main_v14 : FVec F S72x64 .f32 := Host.absf main_arg5
  let main_cst_4 : FVec F S_ .f32 := constant S_ .f32 0x7F800000#32
  let main_v15 : FVec F S72x64 .f32 := broadcastInDim S72x64 ![] bcast_S_S72x64 main_cst_4
  let main_v16 : IVec S72x64 1 := cmpf .olt main_v14 main_v15
  fn_part1 (F := F) main_arg6 main_arg7 main_arg8 main_arg9 main_arg10 main_arg11 main_arg12 main_arg13 main_arg14 main_v13 main_v16
-- ==== Kernel.lean ====
abbrev S100000x32 : Shape := ⟨2, ![100000, 32]⟩
abbrev S50000x32 : Shape := ⟨2, ![50000, 32]⟩
abbrev S2000000x8 : Shape := ⟨2, ![2000000, 8]⟩
abbrev S2000000 : Shape := ⟨1, ![2000000]⟩
abbrev S72x64 : Shape := ⟨2, ![72, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x32 : Shape := ⟨2, ![2000000, 32]⟩
abbrev S32x64 : Shape := ⟨2, ![32, 64]⟩
abbrev S8x64 : Shape := ⟨2, ![8, 64]⟩
abbrev S5000x32 : Shape := ⟨2, ![5000, 32]⟩
abbrev S5000x8 : Shape := ⟨2, ![5000, 8]⟩
abbrev S5000x64 : Shape := ⟨2, ![5000, 64]⟩
abbrev S1x64 : Shape := ⟨2, ![1, 64]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 44
  | .vmem => 27
  | .smem => 0
  | _ => 0

abbrev bufTy : (tb : Table) → Fin (tcTables nBuf tb) → BufTy
  | .hbm, ⟨0, _⟩ => ⟨S100000x32, .f32⟩
  | .hbm, ⟨1, _⟩ => ⟨S50000x32, .f32⟩
  | .hbm, ⟨2, _⟩ => ⟨S2000000x8, .f32⟩
  | .hbm, ⟨3, _⟩ => ⟨S2000000, .i32⟩
  | .hbm, ⟨4, _⟩ => ⟨S2000000, .i32⟩
  | .hbm, ⟨5, _⟩ => ⟨S72x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x32, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x32, .f32⟩
  | .hbm, ⟨33, _⟩ => ⟨S32x64, .f32⟩
  | .hbm, ⟨34, _⟩ => ⟨S32x64, .f32⟩
  | .hbm, ⟨35, _⟩ => ⟨S8x64, .f32⟩
  | .hbm, ⟨36, _⟩ => ⟨S2000000x32, .f32⟩
  | .hbm, ⟨37, _⟩ => ⟨S_, .f32⟩
  | .hbm, ⟨38, _⟩ => ⟨S100000x32, .f32⟩
  | .hbm, ⟨39, _⟩ => ⟨S2000000x1, .i32⟩
  | .hbm, ⟨40, _⟩ => ⟨S100000x32, .f32⟩
  | .hbm, ⟨41, _⟩ => ⟨S32x64, .f32⟩
  | .hbm, ⟨42, _⟩ => ⟨S32x64, .f32⟩
  | .hbm, ⟨43, _⟩ => ⟨S100000x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x8, .f32⟩
  | .local _ .vmem, ⟨5, _⟩ => ⟨S5000x8, .f32⟩
  | .local _ .vmem, ⟨6, _⟩ => ⟨S32x64, .f32⟩
  | .local _ .vmem, ⟨7, _⟩ => ⟨S32x64, .f32⟩
  | .local _ .vmem, ⟨8, _⟩ => ⟨S8x64, .f32⟩
  | .local _ .vmem, ⟨9, _⟩ => ⟨S64, .f32⟩
  | .local _ .vmem, ⟨10, _⟩ => ⟨S64x32, .f32⟩
  | .local _ .vmem, ⟨11, _⟩ => ⟨S32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x64, .f32⟩
  | .local _ .vmem, ⟨19, _⟩ => ⟨S32x64, .f32⟩
  | .local _ .vmem, ⟨20, _⟩ => ⟨S64, .f32⟩
  | .local _ .vmem, ⟨21, _⟩ => ⟨S64x32, .f32⟩
  | .local _ .vmem, ⟨22, _⟩ => ⟨S32, .f32⟩
  | .local _ .vmem, ⟨23, _⟩ => ⟨S32x1, .f32⟩
  | .local _ .vmem, ⟨24, _⟩ => ⟨S1, .f32⟩
  | .local _ .vmem, ⟨25, _⟩ => ⟨S5000x1, .f32⟩
  | .local _ .vmem, ⟨26, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S72x64_S32x64_0_0 : S72x64.Slices ![0, 0] S32x64
  slices_S72x64_S32x64_32_0 : S72x64.Slices ![32, 0] S32x64
  slices_S72x64_S8x64_64_0 : S72x64.Slices ![64, 0] S8x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S5000x8_S5000x8_0_0 : ∀ a, (![0, 0] : Fin 2 → Nat) a + S5000x8.size a ≤ S5000x8.size a
  h_S5000x8 : 0 < S5000x8.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  bcast_S_S100000x32 : S_.BroadcastsInDim S100000x32 (![] : Fin 0 → Fin S100000x32.rank)
  slices_S64x64_S32x64_0_0 : S64x64.Slices ![0, 0] S32x64
  slices_S64x64_S32x64_32_0 : S64x64.Slices ![32, 0] S32x64
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x32_S2000000x1_S2000000x32_1_0_n_n_0_1_132_wf : GatherDims.WF S100000x32 S2000000x1 S2000000x32 [1] [0] [] [0] [] 1 ![1, 32]
  gather_S50000x32_S2000000x1_S2000000x32_1_0_n_n_0_1_132_wf : GatherDims.WF S50000x32 S2000000x1 S2000000x32 [1] [0] [] [0] [] 1 ![1, 32]
  dot_S5000x32_S32x64_S5000x64_1_0_0_1_n_n_wf : DotDims.WF S5000x32 S32x64 S5000x64 [1] [0] [0] [1] [] []
  dot_S5000x8_S8x64_S5000x64_1_0_0_1_n_n_wf : DotDims.WF S5000x8 S8x64 S5000x64 [1] [0] [0] [1] [] []
  dot_S5000x64_S64x32_S5000x32_1_0_0_1_n_n_wf : DotDims.WF S5000x64 S64x32 S5000x32 [1] [0] [0] [1] [] []
  scatter_S100000x32_S2000000x1_S2000000x32_1_0_0_1_wf : ScatterDims.WF S100000x32 S2000000x1 S2000000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S2000000x32.size a
  hwx0_0 : ∀ i : grid0.Coords, EltTy.bits .f32 = 32 ∨ (Rect.block (s := S2000000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S2000000x32.size a
  hwx0_1 : ∀ i : grid0.Coords, EltTy.bits .f32 = 32 ∨ (Rect.block (s := S2000000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S2000000x8.size a
  hwx0_2 : ∀ i : grid0.Coords, EltTy.bits .f32 = 32 ∨ (Rect.block (s := S2000000x8) S5000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S2000000x32.size a
  hwx0_9 : ∀ i : grid0.Coords, EltTy.bits .f32 = 32 ∨ (Rect.block (s := S2000000x32) S5000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v6) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x32 : Shape := ⟨2, ![100000, 32]⟩
abbrev S50000x32 : Shape := ⟨2, ![50000, 32]⟩
abbrev S2000000x8 : Shape := ⟨2, ![2000000, 8]⟩
abbrev S2000000 : Shape := ⟨1, ![2000000]⟩
abbrev S72x64 : Shape := ⟨2, ![72, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x32 : Shape := ⟨2, ![2000000, 32]⟩
abbrev S2000000x72 : Shape := ⟨2, ![2000000, 72]⟩
abbrev S2000000x64 : Shape := ⟨2, ![2000000, 64]⟩
abbrev S1x64 : Shape := ⟨2, ![1, 64]⟩
abbrev S1x32 : Shape := ⟨2, ![1, 32]⟩
abbrev S100000x64 : Shape := ⟨2, ![100000, 64]⟩
abbrev S100000x1 : Shape := ⟨2, ![100000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S50000x32, .f32⟩
  | .hbm, ⟨2, _⟩ => ⟨S2000000x8, .f32⟩
  | .hbm, ⟨3, _⟩ => ⟨S2000000, .i32⟩
  | .hbm, ⟨4, _⟩ => ⟨S2000000, .i32⟩
  | .hbm, ⟨5, _⟩ => ⟨S72x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S64x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x32, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x32, .f32⟩
  | .hbm, ⟨33, _⟩ => ⟨S2000000x72, .f32⟩
  | .hbm, ⟨34, _⟩ => ⟨S2000000x64, .f32⟩
  | .hbm, ⟨35, _⟩ => ⟨S1x64, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S2000000x64, .f32⟩
  | .hbm, ⟨40, _⟩ => ⟨S2000000x64, .f32⟩
  | .hbm, ⟨41, _⟩ => ⟨S2000000x32, .f32⟩
  | .hbm, ⟨42, _⟩ => ⟨S1x32, .f32⟩
  | .hbm, ⟨43, _⟩ => ⟨S2000000x32, .f32⟩
  | .hbm, ⟨44, _⟩ => ⟨S2000000x32, .f32⟩
  | .hbm, ⟨45, _⟩ => ⟨S_, .f32⟩
  | .hbm, ⟨46, _⟩ => ⟨S2000000x32, .f32⟩
  | .hbm, ⟨47, _⟩ => ⟨S2000000x32, .f32⟩
  | .hbm, ⟨48, _⟩ => ⟨S_, .f32⟩
  | .hbm, ⟨49, _⟩ => ⟨S100000x32, .f32⟩
  | .hbm, ⟨50, _⟩ => ⟨S2000000x1, .i32⟩
  | .hbm, ⟨51, _⟩ => ⟨S100000x32, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | .hbm, ⟨67, _⟩ => ⟨S100000x1, .f32⟩
  | .hbm, ⟨68, _⟩ => ⟨S1x1, .f32⟩
  | .hbm, ⟨69, _⟩ => ⟨S100000x1, .f32⟩
  | .hbm, ⟨70, _⟩ => ⟨S100000x1, .f32⟩
  | .hbm, ⟨71, _⟩ => ⟨S100000x1, .f32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_cst : Ref sig .tc := ⟨.hbm, 64, rfl⟩
abbrev main_call3_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x32_S2000000x32_S2000000x8_S2000000x72_d1 : Shape.Concatenates [S2000000x32, S2000000x32, S2000000x8] S2000000x72 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x32_S2000000x1_S2000000x32_1_0_n_n_0_1_132_wf : GatherDims.WF S100000x32 S2000000x1 S2000000x32 [1] [0] [] [0] [] 1 ![1, 32]
  gather_S50000x32_S2000000x1_S2000000x32_1_0_n_n_0_1_132_wf : GatherDims.WF S50000x32 S2000000x1 S2000000x32 [1] [0] [] [0] [] 1 ![1, 32]
  dot_S2000000x72_S72x64_S2000000x64_1_0_0_1_n_n_wf : DotDims.WF S2000000x72 S72x64 S2000000x64 [1] [0] [0] [1] [] []
  dot_S2000000x64_S64x32_S2000000x32_1_0_0_1_n_n_wf : DotDims.WF S2000000x64 S64x32 S2000000x32 [1] [0] [0] [1] [] []
  scatter_S100000x32_S2000000x1_S2000000x32_1_0_0_1_wf : ScatterDims.WF S100000x32 S2000000x1 S2000000x32 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def dot_S2000000x72_S72x64_S2000000x64_1_0_0_1_n_n : DotDims S2000000x72 S72x64 S2000000x64 where
  lhsContracting := [1]
  rhsContracting := [0]
  lhsNonContracting := [0]
  rhsNonContracting := [1]
  lhsBatch := []
  rhsBatch := []
  wf := dot_S2000000x72_S72x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The mathematics of the two MLPs, stated once over the extended reals and independent of any program.

  An edge row e carries three feature vectors x_e (32 numbers), y_e (32 numbers), z_e (8 numbers).  The edge
  network is
      h_e = relu (relu (x_e Wx + y_e Wy + z_e Wz + b1) W2 + b2)                                 (edgeOut)
  and, written over the concatenated row [x_e, y_e, z_e] of 72 numbers and ONE 72 x 64 weight matrix W,
      h_e = relu (relu ([x_e, y_e, z_e] W + b1) W2 + b2)                                        (edgeOutCat).
  The two agree when Wx, Wy, Wz are the row blocks 0..31, 32..63, 64..71 of W: a sum over 72 indices is the
  sum of its three consecutive stretches (sum72_split), and addition of extended reals is associative, so no
  finiteness is needed.

  A node row n carries u_n (32 numbers) and the aggregate a_n (32 numbers).  The node network is
      o_n = sigma (relu (relu (u_n Vu + a_n Va + c1) V2 + c2) t + d),   sigma s = 1 / (1 + e^(-s))   (nodeOut)
  and over the concatenated row [u_n, a_n] with one 64 x 64 matrix V it is nodeOutCat (sum64_split).

  Everything is generic in the number of rows N, so that the same definition reads a 5000-row block and the
  whole array; each network is first given at an explicit row and column, the array being that value at the
  index's two coordinates.
-/
import Idealize.ShloMosaic.PureOps.Ideal
import Idealize.ShloMosaic.Lib.ValueIdx

noncomputable section

namespace Cert.GraphNet

open Idealize.ShloMosaic Idealize.ShloMosaic.ValueIdx

/-- An r x c array of extended reals. -/
abbrev Mat (r c : Nat) : Type := (⟨2, ![r, c]⟩ : Shape).Idx → EReal
/-- A length-n array of extended reals. -/
abbrev Vect (n : Nat) : Type := (⟨1, ![n]⟩ : Shape).Idx → EReal

/-! ## The edge network -/

/-- Hidden unit k of edge row e: relu (x_e Wx + y_e Wy + z_e Wz + b1) at k, the three products added left to right. -/
def edgeHidden {N : Nat} (x y : Mat N 32) (z : Mat N 8) (wx wy : Mat 32 64) (wz : Mat 8 64) (b1 : Vect 64)
    (e : Fin N) (k : Fin 64) : EReal :=
  max ((((∑ a : Fin 32, x (ix2 e a) * wx (ix2 a k)) + (∑ a : Fin 32, y (ix2 e a) * wy (ix2 a k)))
        + (∑ a : Fin 8, z (ix2 e a) * wz (ix2 a k))) + b1 (ix1 k)) 0

/-- Output unit q of edge row e: relu (hidden W2 + b2) at q. -/
def edgeAt {N : Nat} (x y : Mat N 32) (z : Mat N 8) (wx wy : Mat 32 64) (wz : Mat 8 64) (b1 : Vect 64)
    (w2 : Mat 64 32) (b2 : Vect 32) (e : Fin N) (q : Fin 32) : EReal :=
  max ((∑ k : Fin 64, edgeHidden x y z wx wy wz b1 e k * w2 (ix2 k q)) + b2 (ix1 q)) 0

/-- The edge network's output array. -/
def edgeOut {N : Nat} (x y : Mat N 32) (z : Mat N 8) (wx wy : Mat 32 64) (wz : Mat 8 64) (b1 : Vect 64)
    (w2 : Mat 64 32) (b2 : Vect 32) : Mat N 32 := fun i => edgeAt x y z wx wy wz b1 w2 b2 (i 0) (i 1)

/-- The same hidden unit over the concatenated row and one weight matrix. -/
def edgeHiddenCat {N : Nat} (xyz : Mat N 72) (w : Mat 72 64) (b1 : Vect 64) (e : Fin N) (k : Fin 64) : EReal :=
  max ((∑ a : Fin 72, xyz (ix2 e a) * w (ix2 a k)) + b1 (ix1 k)) 0

/-- The same output unit over the concatenated row and one weight matrix. -/
def edgeAtCat {N : Nat} (xyz : Mat N 72) (w : Mat 72 64) (b1 : Vect 64) (w2 : Mat 64 32) (b2 : Vect 32)
    (e : Fin N) (q : Fin 32) : EReal :=
  max ((∑ k : Fin 64, edgeHiddenCat xyz w b1 e k * w2 (ix2 k q)) + b2 (ix1 q)) 0

/-- The edge network's output array over the concatenated row. -/
def edgeOutCat {N : Nat} (xyz : Mat N 72) (w : Mat 72 64) (b1 : Vect 64) (w2 : Mat 64 32) (b2 : Vect 32) : Mat N 32 :=
  fun i => edgeAtCat xyz w b1 w2 b2 (i 0) (i 1)

/-- A sum over 72 indices is the sum of its stretches 0..31, 32..63 and 64..71. -/
theorem sum72_split (f : Fin 72 → EReal) :
    (∑ a : Fin 72, f a)
      = ((∑ a : Fin 32, f ⟨a.val, by omega⟩) + (∑ a : Fin 32, f ⟨32 + a.val, by omega⟩)) + (∑ a : Fin 8, f ⟨64 + a.val, by omega⟩) := by
  have h1 := Fin.sum_univ_add (a := 64) (b := 8) (fun i : Fin (64 + 8) => f ⟨i.val, i.isLt⟩)
  have h2 := Fin.sum_univ_add (a := 32) (b := 32) (fun i : Fin (32 + 32) => f ⟨i.val, by have := i.isLt; omega⟩)
  calc (∑ a : Fin 72, f a) = ∑ i : Fin (64 + 8), f ⟨i.val, i.isLt⟩ := rfl
    _ = (∑ i : Fin 64, f ⟨i.val, by omega⟩) + (∑ i : Fin 8, f ⟨64 + i.val, by omega⟩) := h1
    _ = _ := congrArg (· + (∑ i : Fin 8, f ⟨64 + i.val, by omega⟩)) h2

/-- The split and the concatenated edge networks agree when the three matrices are the row blocks of the one,
    and the three feature arrays the column blocks of the concatenated one. -/
theorem edgeOut_eq_cat {N : Nat} (x y : Mat N 32) (z : Mat N 8) (wx wy : Mat 32 64) (wz : Mat 8 64) (b1 : Vect 64)
    (w2 : Mat 64 32) (b2 : Vect 32) (xyz : Mat N 72) (w : Mat 72 64)
    (hx : ∀ (e : Fin N) (a : Fin 32), xyz (ix2 e ⟨a.val, by omega⟩) = x (ix2 e a))
    (hy : ∀ (e : Fin N) (a : Fin 32), xyz (ix2 e ⟨32 + a.val, by omega⟩) = y (ix2 e a))
    (hz : ∀ (e : Fin N) (a : Fin 8), xyz (ix2 e ⟨64 + a.val, by omega⟩) = z (ix2 e a))
    (hwx : ∀ (a : Fin 32) (k : Fin 64), w (ix2 ⟨a.val, by omega⟩ k) = wx (ix2 a k))
    (hwy : ∀ (a : Fin 32) (k : Fin 64), w (ix2 ⟨32 + a.val, by omega⟩ k) = wy (ix2 a k))
    (hwz : ∀ (a : Fin 8) (k : Fin 64), w (ix2 ⟨64 + a.val, by omega⟩ k) = wz (ix2 a k)) :
    edgeOutCat xyz w b1 w2 b2 = edgeOut x y z wx wy wz b1 w2 b2 := by
  have hh : ∀ (e : Fin N) (k : Fin 64), edgeHiddenCat xyz w b1 e k = edgeHidden x y z wx wy wz b1 e k := by
    intro e k
    unfold edgeHiddenCat edgeHidden
    rw [sum72_split]
    simp only [hx, hy, hz, hwx, hwy, hwz]
  have hat : ∀ (e : Fin N) (q : Fin 32), edgeAtCat xyz w b1 w2 b2 e q = edgeAt x y z wx wy wz b1 w2 b2 e q := by
    intro e q
    unfold edgeAtCat edgeAt
    simp only [hh]
  exact funext fun i => hat (i 0) (i 1)

/-! ## The node network -/

/-- Hidden unit k of node row n: relu (u_n Vu + a_n Va + c1) at k. -/
def nodeHidden {N : Nat} (u a : Mat N 32) (vu va : Mat 32 64) (c1 : Vect 64) (n : Fin N) (k : Fin 64) : EReal :=
  max (((∑ s : Fin 32, u (ix2 n s) * vu (ix2 s k)) + (∑ s : Fin 32, a (ix2 n s) * va (ix2 s k))) + c1 (ix1 k)) 0

/-- Second hidden unit j of node row n: relu (hidden V2 + c2) at j. -/
def nodeHidden2 {N : Nat} (u a : Mat N 32) (vu va : Mat 32 64) (c1 : Vect 64) (v2 : Mat 64 32) (c2 : Vect 32)
    (n : Fin N) (j : Fin 32) : EReal :=
  max ((∑ k : Fin 64, nodeHidden u a vu va c1 n k * v2 (ix2 k j)) + c2 (ix1 j)) 0

/-- The node network at row n (and its one column q): the logistic function of hidden2 t + d. -/
def nodeAt {N : Nat} (u a : Mat N 32) (vu va : Mat 32 64) (c1 : Vect 64) (v2 : Mat 64 32) (c2 : Vect 32)
    (t : Mat 32 1) (d : Vect 1) (n : Fin N) (q : Fin 1) : EReal :=
  Ideal.logistic ((∑ j : Fin 32, nodeHidden2 u a vu va c1 v2 c2 n j * t (ix2 j q)) + d (ix1 q))

/-- The node network's output array. -/
def nodeOut {N : Nat} (u a : Mat N 32) (vu va : Mat 32 64) (c1 : Vect 64) (v2 : Mat 64 32) (c2 : Vect 32)
    (t : Mat 32 1) (d : Vect 1) : Mat N 1 := fun i => nodeAt u a vu va c1 v2 c2 t d (i 0) (i 1)

/-- The first hidden unit over the concatenated row and one matrix. -/
def nodeHiddenCat {N : Nat} (ua : Mat N 64) (v : Mat 64 64) (c1 : Vect 64) (n : Fin N) (k : Fin 64) : EReal :=
  max ((∑ s : Fin 64, ua (ix2 n s) * v (ix2 s k)) + c1 (ix1 k)) 0

/-- The second hidden unit over the concatenated row. -/
def nodeHidden2Cat {N : Nat} (ua : Mat N 64) (v : Mat 64 64) (c1 : Vect 64) (v2 : Mat 64 32) (c2 : Vect 32)
    (n : Fin N) (j : Fin 32) : EReal :=
  max ((∑ k : Fin 64, nodeHiddenCat ua v c1 n k * v2 (ix2 k j)) + c2 (ix1 j)) 0

/-- The node network over the concatenated row, with the logistic function spelt 1 / (1 + e^(-s)). -/
def nodeAtCat {N : Nat} (ua : Mat N 64) (v : Mat 64 64) (c1 : Vect 64) (v2 : Mat 64 32) (c2 : Vect 32)
    (t : Mat 32 1) (d : Vect 1) (n : Fin N) (q : Fin 1) : EReal :=
  Ideal.div 1 (1 + Ideal.exp (-((∑ j : Fin 32, nodeHidden2Cat ua v c1 v2 c2 n j * t (ix2 j q)) + d (ix1 q))))

/-- Its output array. -/
def nodeOutCat {N : Nat} (ua : Mat N 64) (v : Mat 64 64) (c1 : Vect 64) (v2 : Mat 64 32) (c2 : Vect 32)
    (t : Mat 32 1) (d : Vect 1) : Mat N 1 := fun i => nodeAtCat ua v c1 v2 c2 t d (i 0) (i 1)

/-- A sum over 64 indices is the sum of its two halves. -/
theorem sum64_split (f : Fin 64 → EReal) :
    (∑ s : Fin 64, f s) = (∑ s : Fin 32, f ⟨s.val, by omega⟩) + (∑ s : Fin 32, f ⟨32 + s.val, by omega⟩) :=
  Fin.sum_univ_add (a := 32) (b := 32) (fun i : Fin (32 + 32) => f ⟨i.val, i.isLt⟩)

/-- The split and the concatenated node networks agree (the logistic function IS 1 / (1 + e^(-s))). -/
theorem nodeOut_eq_cat {N : Nat} (u a : Mat N 32) (vu va : Mat 32 64) (c1 : Vect 64) (v2 : Mat 64 32) (c2 : Vect 32)
    (t : Mat 32 1) (d : Vect 1) (ua : Mat N 64) (v : Mat 64 64)
    (hu : ∀ (n : Fin N) (s : Fin 32), ua (ix2 n ⟨s.val, by omega⟩) = u (ix2 n s))
    (ha : ∀ (n : Fin N) (s : Fin 32), ua (ix2 n ⟨32 + s.val, by omega⟩) = a (ix2 n s))
    (hvu : ∀ (s : Fin 32) (k : Fin 64), v (ix2 ⟨s.val, by omega⟩ k) = vu (ix2 s k))
    (hva : ∀ (s : Fin 32) (k : Fin 64), v (ix2 ⟨32 + s.val, by omega⟩ k) = va (ix2 s k)) :
    nodeOutCat ua v c1 v2 c2 t d = nodeOut u a vu va c1 v2 c2 t d := by
  have hh : ∀ (n : Fin N) (k : Fin 64), nodeHiddenCat ua v c1 n k = nodeHidden u a vu va c1 n k := by
    intro n k
    unfold nodeHiddenCat nodeHidden
    rw [sum64_split]
    simp only [hu, ha, hvu, hva]
  have hh2 : ∀ (n : Fin N) (j : Fin 32), nodeHidden2Cat ua v c1 v2 c2 n j = nodeHidden2 u a vu va c1 v2 c2 n j := by
    intro n j
    unfold nodeHidden2Cat nodeHidden2
    simp only [hh]
  have hat : ∀ (n : Fin N) (q : Fin 1), nodeAtCat ua v c1 v2 c2 t d n q = nodeAt u a vu va c1 v2 c2 t d n q := by
    intro n q
    unfold nodeAtCat nodeAt
    simp only [hh2]
    rfl
  exact funext fun i => hat (i 0) (i 1)

end Cert.GraphNet

end
-- ==== Proof.KDots.lean ====
/-
  The kernels' four matrix products, each read at an entry as a plain sum at the ideal values, and a bias
  vector spread over the rows read at an entry.

  Both kernels multiply a 5000-row block by a small weight matrix into a zero accumulator: at the ideal values
  entry (p, k) of such a product is the sum over the contracted index a of left(p, a) * right(a, k), with no
  rounding and no order left in it.
-/
import proofs.«116639_j81475529605800_1_alg».proof.Proof.Gen.KernelIdeal
import Idealize.ShloMosaic.Lib.ValueIdx
import Idealize.ShloMosaic.Lib.ValueLayout
import Idealize.ShloMosaic.PureOps.Ideal.Laws

noncomputable section

namespace Cert.KernelIdeal.KDots

open Cert.KernelIdeal Idealize.ShloMosaic Idealize.ShloMosaic.ValueIdx

/-! ## A 5000 x 32 block times a 32 x 64 matrix -/

theorem lhs_a_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_a_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs_a_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs_a_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- Entry (p, k) of the product into a zero accumulator is the sum over the 32 contracted indices of row p of the left
    operand times column k of the right one. -/
theorem mm_a {φ₁ φ₂ : FTy} (A : FVec Ideal S5000x32 φ₁) (B : FVec Ideal S32x64 φ₂) (p : Fin 5000) (k : Fin 64) :
    matmul dot_S5000x32_S32x64_S5000x64_1_0_0_1_n_n none A B (constant S5000x64 .f32 0x00000000#32) (ix2 p k)
      = ∑ a : Fin 32, A (ix2 p a) * B (ix2 a k) := by
  simp only [matmul]
  rw [Ideal.matmul_constant_zero_apply, ← Equiv.sum_comp (ValueIdx.contrEquiv1 dot_S5000x32_S32x64_S5000x64_1_0_0_1_n_n 32 rfl rfl).symm]
  refine Finset.sum_congr rfl fun a _ => ?_
  have hk := ValueIdx.contrEquiv1_symm_val dot_S5000x32_S32x64_S5000x64_1_0_0_1_n_n 32 rfl rfl a
  have el : dot_S5000x32_S32x64_S5000x64_1_0_0_1_n_n.lhsIdx (ix2 p k) ((ValueIdx.contrEquiv1 dot_S5000x32_S32x64_S5000x64_1_0_0_1_n_n 32 rfl rfl).symm a) = ix2 p a := funext fun ax => Fin.ext (by
    match ax with
    | ⟨0, _⟩ => exact lhs_a_0 _ _
    | ⟨1, _⟩ => exact (lhs_a_1 _ _).trans hk)
  have er : dot_S5000x32_S32x64_S5000x64_1_0_0_1_n_n.rhsIdx (ix2 p k) ((ValueIdx.contrEquiv1 dot_S5000x32_S32x64_S5000x64_1_0_0_1_n_n 32 rfl rfl).symm a) = ix2 a k := funext fun ax => Fin.ext (by
    match ax with
    | ⟨0, _⟩ => exact (rhs_a_0 _ _).trans hk
    | ⟨1, _⟩ => exact rhs_a_1 _ _)
  rw [el, er]

/-! ## A 5000 x 8 block times an 8 x 64 matrix -/

theorem lhs_b_0 (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
  rfl
theorem lhs_b_1 (i : S5000x64.Idx) (q : dot_S5000x8_S8x64_S5000x64_1_0_0_1_n_n.contr.Idx) :
    (dot_S5000x8_S8x64_S5000x64_1_0_0_1_n_n.lhsIdx i q 1).val = (q ⟨0, by decide⟩).val :=
  dot_S5000x8_S8x64_S5000x64_1_0_0_1_n_n.lhsIdx_val_of_single rfl i q
theorem rhs_b_0 (i : S5000x64.Idx) (q : dot_S5000x8_S8x64_S5000x64_1_0_0_1_n_n.contr.Idx) :
    (dot_S5000x8_S8x64_S5000x64_1_0_0_1_n_n.rhsIdx i q 0).val = (q ⟨0, by decide⟩).val :=
  dot_S5000x8_S8x64_S5000x64_1_0_0_1_n_n.rhsIdx_val_of_single rfl i q
theorem rhs_b_1 (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
  rfl

/-- Entry (p, k) of the product into a zero accumulator is the sum over the 8 contracted indices of row p of the left
    operand times column k of the right one. -/
theorem mm_b {φ₁ φ₂ : FTy} (A : FVec Ideal S5000x8 φ₁) (B : FVec Ideal S8x64 φ₂) (p : Fin 5000) (k : Fin 64) :
    matmul dot_S5000x8_S8x64_S5000x64_1_0_0_1_n_n none A B (constant S5000x64 .f32 0x00000000#32) (ix2 p k)
      = ∑ a : Fin 8, A (ix2 p a) * B (ix2 a k) := by
  simp only [matmul]
  rw [Ideal.matmul_constant_zero_apply, ← Equiv.sum_comp (ValueIdx.contrEquiv1 dot_S5000x8_S8x64_S5000x64_1_0_0_1_n_n 8 rfl rfl).symm]
  refine Finset.sum_congr rfl fun a _ => ?_
  have hk := ValueIdx.contrEquiv1_symm_val dot_S5000x8_S8x64_S5000x64_1_0_0_1_n_n 8 rfl rfl a
  have el : dot_S5000x8_S8x64_S5000x64_1_0_0_1_n_n.lhsIdx (ix2 p k) ((ValueIdx.contrEquiv1 dot_S5000x8_S8x64_S5000x64_1_0_0_1_n_n 8 rfl rfl).symm a) = ix2 p a := funext fun ax => Fin.ext (by
    match ax with
    | ⟨0, _⟩ => exact lhs_b_0 _ _
    | ⟨1, _⟩ => exact (lhs_b_1 _ _).trans hk)
  have er : dot_S5000x8_S8x64_S5000x64_1_0_0_1_n_n.rhsIdx (ix2 p k) ((ValueIdx.contrEquiv1 dot_S5000x8_S8x64_S5000x64_1_0_0_1_n_n 8 rfl rfl).symm a) = ix2 a k := funext fun ax => Fin.ext (by
    match ax with
    | ⟨0, _⟩ => exact (rhs_b_0 _ _).trans hk
    | ⟨1, _⟩ => exact rhs_b_1 _ _)
  rw [el, er]

/-! ## A 5000 x 64 block times a 64 x 32 matrix -/

theorem lhs_c_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_c_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_c_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_c_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Entry (p, k) of the product into a zero accumulator is the sum over the 64 contracted indices of row p of the left
    operand times column k of the right one. -/
theorem mm_c {φ₁ φ₂ : FTy} (A : FVec Ideal S5000x64 φ₁) (B : FVec Ideal S64x32 φ₂) (p : Fin 5000) (k : Fin 32) :
    matmul dot_S5000x64_S64x32_S5000x32_1_0_0_1_n_n none A B (constant S5000x32 .f32 0x00000000#32) (ix2 p k)
      = ∑ a : Fin 64, A (ix2 p a) * B (ix2 a k) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun a _ => ?_
  have hk := ValueIdx.contrEquiv1_symm_val dot_S5000x64_S64x32_S5000x32_1_0_0_1_n_n 64 rfl rfl a
  have el : dot_S5000x64_S64x32_S5000x32_1_0_0_1_n_n.lhsIdx (ix2 p k) ((ValueIdx.contrEquiv1 dot_S5000x64_S64x32_S5000x32_1_0_0_1_n_n 64 rfl rfl).symm a) = ix2 p a := funext fun ax => Fin.ext (by
    match ax with
    | ⟨0, _⟩ => exact lhs_c_0 _ _
    | ⟨1, _⟩ => exact (lhs_c_1 _ _).trans hk)
  have er : dot_S5000x64_S64x32_S5000x32_1_0_0_1_n_n.rhsIdx (ix2 p k) ((ValueIdx.contrEquiv1 dot_S5000x64_S64x32_S5000x32_1_0_0_1_n_n 64 rfl rfl).symm a) = ix2 a k := funext fun ax => Fin.ext (by
    match ax with
    | ⟨0, _⟩ => exact (rhs_c_0 _ _).trans hk
    | ⟨1, _⟩ => exact rhs_c_1 _ _)
  rw [el, er]

/-! ## A 5000 x 32 block times a 32 x 1 matrix -/

theorem lhs_d_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs_d_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs_d_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs_d_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- Entry (p, k) of the product into a zero accumulator is the sum over the 32 contracted indices of row p of the left
    operand times column k of the right one. -/
theorem mm_d {φ₁ φ₂ : FTy} (A : FVec Ideal S5000x32 φ₁) (B : FVec Ideal S32x1 φ₂) (p : Fin 5000) (k : Fin 1) :
    matmul dot_S5000x32_S32x1_S5000x1_1_0_0_1_n_n none A B (constant S5000x1 .f32 0x00000000#32) (ix2 p k)
      = ∑ a : Fin 32, A (ix2 p a) * B (ix2 a k) := by
  simp only [matmul]
  rw [Ideal.matmul_constant_zero_apply, ← Equiv.sum_comp (ValueIdx.contrEquiv1 dot_S5000x32_S32x1_S5000x1_1_0_0_1_n_n 32 rfl rfl).symm]
  refine Finset.sum_congr rfl fun a _ => ?_
  have hk := ValueIdx.contrEquiv1_symm_val dot_S5000x32_S32x1_S5000x1_1_0_0_1_n_n 32 rfl rfl a
  have el : dot_S5000x32_S32x1_S5000x1_1_0_0_1_n_n.lhsIdx (ix2 p k) ((ValueIdx.contrEquiv1 dot_S5000x32_S32x1_S5000x1_1_0_0_1_n_n 32 rfl rfl).symm a) = ix2 p a := funext fun ax => Fin.ext (by
    match ax with
    | ⟨0, _⟩ => exact lhs_d_0 _ _
    | ⟨1, _⟩ => exact (lhs_d_1 _ _).trans hk)
  have er : dot_S5000x32_S32x1_S5000x1_1_0_0_1_n_n.rhsIdx (ix2 p k) ((ValueIdx.contrEquiv1 dot_S5000x32_S32x1_S5000x1_1_0_0_1_n_n 32 rfl rfl).symm a) = ix2 a k := funext fun ax => Fin.ext (by
    match ax with
    | ⟨0, _⟩ => exact (rhs_d_0 _ _).trans hk
    | ⟨1, _⟩ => exact rhs_d_1 _ _)
  rw [el, er]

/-! ## A bias vector spread over the rows -/

/-- A length-b vector given a leading unit axis and spread over a rows reads, at (p, c), the vector at c. -/
theorem bias_row {α : Type} {a b : Nat} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) := by
  rw [broadcastTo_1b_ab_apply, shapeCast_a_1a_apply]

end Cert.KernelIdeal.KDots

end
-- ==== Proof.SpecRows.lean ====
/-
  Each network's value at a row depends on the feature arrays only through that row: two arrays (of any heights)
  that agree on one row of each give the same output there.  This is what lets a 5000-row block stand for the
  rows of the whole array it was cut from.
-/
import proofs.«116639_j81475529605800_1_alg».proof.Proof.Spec

noncomputable section

namespace Cert.GraphNet

open Idealize.ShloMosaic Idealize.ShloMosaic.ValueIdx

/-- The edge network at row e of (x, y, z) is its value at row e' of (x', y', z') when those rows agree. -/
theorem edgeAt_rows {N M : Nat} (x y : Mat N 32) (z : Mat N 8) (x' y' : Mat M 32) (z' : Mat M 8)
    (wx wy : Mat 32 64) (wz : Mat 8 64) (b1 : Vect 64) (w2 : Mat 64 32) (b2 : Vect 32) (e : Fin N) (e' : Fin M) (q : Fin 32)
    (hx : ∀ a : Fin 32, x (ix2 e a) = x' (ix2 e' a)) (hy : ∀ a : Fin 32, y (ix2 e a) = y' (ix2 e' a))
    (hz : ∀ a : Fin 8, z (ix2 e a) = z' (ix2 e' a)) :
    edgeAt x y z wx wy wz b1 w2 b2 e q = edgeAt x' y' z' wx wy wz b1 w2 b2 e' q := by
  unfold edgeAt edgeHidden
  simp only [hx, hy, hz]

/-- The node network at row n of (u, a) is its value at row n' of (u', a') when those rows agree. -/
theorem nodeAt_rows {N M : Nat} (u a : Mat N 32) (u' a' : Mat M 32) (vu va : Mat 32 64) (c1 : Vect 64)
    (v2 : Mat 64 32) (c2 : Vect 32) (t : Mat 32 1) (d : Vect 1) (n : Fin N) (n' : Fin M) (q : Fin 1)
    (hu : ∀ s : Fin 32, u (ix2 n s) = u' (ix2 n' s)) (ha : ∀ s : Fin 32, a (ix2 n s) = a' (ix2 n' s)) :
    nodeAt u a vu va c1 v2 c2 t d n q = nodeAt u' a' vu va c1 v2 c2 t d n' q := by
  unfold nodeAt nodeHidden2 nodeHidden
  simp only [hu, ha]

end Cert.GraphNet

end
-- ==== Proof.EdgeValue.lean ====
/-
  The edge region's output array after its 400 grid points: the edge network of the arrays the region finds.

  Point t of the grid loads rows t * 5000 .. t * 5000 + 4999 of the two gathered feature arrays and of the edge
  values, and the whole of every weight and bias array; on that block the body computes
      relu (relu (x Wx + y Wy + z Wz + b1) W2 + b2)
  row by row, and writes the 5000 x 32 result back as rows t * 5000 .. of the output array.  A row's output
  depends only on that row of the features, so the block written back is block t of the edge network of the
  WHOLE arrays; the 400 blocks tile the 2,000,000 rows, hence the array ends holding that network everywhere.
-/
import proofs.«116639_j81475529605800_1_alg».proof.Proof.Gen.KernelIdeal.Frame
import proofs.«116639_j81475529605800_1_alg».proof.Proof.Spec
import proofs.«116639_j81475529605800_1_alg».proof.Proof.KDots
import proofs.«116639_j81475529605800_1_alg».proof.Proof.SpecRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Cert.KernelIdeal.KDots Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic on one block -/

/-- The zero word is the extended real 0. -/
theorem zero_word : FloatOps.ofBits (F := Ideal) FTy.f32 0#32 = (0 : EReal) := Ideal.ofBits_zero_f32

/-- On a 5000-row block the body computes the edge network of the block's rows: three products into zero
    accumulators added left to right, the bias, the maximum with zero, one more product, bias and maximum; the
    narrowing of the operands is the identity on extended reals. -/
theorem edge_block (x0 x1 : Vec Ideal S5000x32 .f32) (x2 : Vec Ideal S5000x8 .f32) (x3 x4 : Vec Ideal S32x64 .f32)
    (x5 : Vec Ideal S8x64 .f32) (x6 : Vec Ideal S64 .f32) (x7 : Vec Ideal S64x32 .f32) (x8 : Vec Ideal S32 .f32) :
    k0_pay1 (k0_pay2 x0 x1 x2 x3 x4 x5 x6 x7 x8) (k0_pay3 (F := Ideal))
      = edgeOut (N := 5000) x0 x1 x2 x3 x4 x5 x6 x7 x8 := by
  funext j
  obtain ⟨p, q, rfl⟩ : ∃ (p : Fin 5000) (q : Fin 32), j = ix2 p q := ⟨j 0, j 1, eq_ix2 j⟩
  unfold k0_pay1 k0_pay2 k0_pay3 edgeOut edgeAt edgeHidden
  simp only [maximumf_apply, addf_apply, truncf_apply, broadcast_apply, mm_a, mm_b, mm_c, bias_row, shapeCast_self, zero_word]

/-! ## Where the blocks sit in their arrays -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 400 grid points: the three feature windows and the output window sit
    at block row t, every weight and bias window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row p of point t's block is row t * 5000 + p of the array. -/
abbrev rowOf (t : Fin cfg0.N) (p : Fin 5000) : Fin 2000000 :=
  ⟨t.val * 5000 + p.val, by have ht : t.val < 400 := t.isLt; have hp := p.isLt; omega⟩

/-- The first gathered array's block at point t, read at (p, a). -/
theorem read0 (c : Dev nD) (t : Fin cfg0.N) (p : Fin 5000) (a : Fin 32) :
    iblk0 V c 0 t (ix2 p a) = V c main_v6 (ix2 (rowOf t p) a) := by
  obtain ⟨e0, e1, -⟩ := idx_facts t
  show V c main_v6 (((cfg0.win 0).blk t).view.emb (ix2 p a)) = _
  refine congrArg (V c main_v6) ?_
  funext ax; apply Fin.ext
  match ax with
  | ⟨0, _⟩ => show win0_0.index t (0 : Fin 2) * 5000 + 1 * p.val = t.val * 5000 + p.val; rw [e0]; omega
  | ⟨1, _⟩ => show win0_0.index t (1 : Fin 2) * 32 + 1 * a.val = a.val; rw [e1]; omega

/-- The second gathered array's block at point t, read at (p, a). -/
theorem read1 (c : Dev nD) (t : Fin cfg0.N) (p : Fin 5000) (a : Fin 32) :
    iblk0 V c 1 t (ix2 p a) = V c main_v13 (ix2 (rowOf t p) a) := by
  obtain ⟨-, -, e0, e1, -⟩ := idx_facts t
  show V c main_v13 (((cfg0.win 1).blk t).view.emb (ix2 p a)) = _
  refine congrArg (V c main_v13) ?_
  funext ax; apply Fin.ext
  match ax with
  | ⟨0, _⟩ => show win0_1.index t (0 : Fin 2) * 5000 + 1 * p.val = t.val * 5000 + p.val; rw [e0]; omega
  | ⟨1, _⟩ => show win0_1.index t (1 : Fin 2) * 32 + 1 * a.val = a.val; rw [e1]; omega

/-- The edge values' block at point t, read at (p, a). -/
theorem read2 (c : Dev nD) (t : Fin cfg0.N) (p : Fin 5000) (a : Fin 8) :
    iblk0 V c 2 t (ix2 p a) = V c main_arg2 (ix2 (rowOf t p) a) := by
  obtain ⟨-, -, -, -, e0, e1, -⟩ := idx_facts t
  show V c main_arg2 (((cfg0.win 2).blk t).view.emb (ix2 p a)) = _
  refine congrArg (V c main_arg2) ?_
  funext ax; apply Fin.ext
  match ax with
  | ⟨0, _⟩ => show win0_2.index t (0 : Fin 2) * 5000 + 1 * p.val = t.val * 5000 + p.val; rw [e0]; omega
  | ⟨1, _⟩ => show win0_2.index t (1 : Fin 2) * 8 + 1 * a.val = a.val; rw [e1]; omega

/-- A weight window's one block is its whole array. -/
theorem whole3 (c : Dev nD) (t : Fin cfg0.N) : (iblk0 V c 3 t : Vec Ideal S32x64 .f32) = V c main_v14 := by
  obtain ⟨-, -, -, -, -, -, e0, e1, -⟩ := idx_facts t
  funext y
  show V c main_v14 (((cfg0.win 3).blk t).view.emb y) = V c main_v14 y
  refine congrArg (V c main_v14) ?_
  funext ax; apply Fin.ext
  match ax with
  | ⟨0, _⟩ => show win0_3.index t (0 : Fin 2) * 32 + 1 * (y 0).val = (y 0).val; rw [e0]; omega
  | ⟨1, _⟩ => show win0_3.index t (1 : Fin 2) * 64 + 1 * (y 1).val = (y 1).val; rw [e1]; omega

theorem whole4 (c : Dev nD) (t : Fin cfg0.N) : (iblk0 V c 4 t : Vec Ideal S32x64 .f32) = V c main_v15 := by
  obtain ⟨-, -, -, -, -, -, -, -, e0, e1, -⟩ := idx_facts t
  funext y
  show V c main_v15 (((cfg0.win 4).blk t).view.emb y) = V c main_v15 y
  refine congrArg (V c main_v15) ?_
  funext ax; apply Fin.ext
  match ax with
  | ⟨0, _⟩ => show win0_4.index t (0 : Fin 2) * 32 + 1 * (y 0).val = (y 0).val; rw [e0]; omega
  | ⟨1, _⟩ => show win0_4.index t (1 : Fin 2) * 64 + 1 * (y 1).val = (y 1).val; rw [e1]; omega

theorem whole5 (c : Dev nD) (t : Fin cfg0.N) : (iblk0 V c 5 t : Vec Ideal S8x64 .f32) = V c main_v16 := by
  obtain ⟨-, -, -, -, -, -, -, -, -, -, e0, e1, -⟩ := idx_facts t
  funext y
  show V c main_v16 (((cfg0.win 5).blk t).view.emb y) = V c main_v16 y
  refine congrArg (V c main_v16) ?_
  funext ax; apply Fin.ext
  match ax with
  | ⟨0, _⟩ => show win0_5.index t (0 : Fin 2) * 8 + 1 * (y 0).val = (y 0).val; rw [e0]; omega
  | ⟨1, _⟩ => show win0_5.index t (1 : Fin 2) * 64 + 1 * (y 1).val = (y 1).val; rw [e1]; omega

theorem whole6 (c : Dev nD) (t : Fin cfg0.N) : (iblk0 V c 6 t : Vec Ideal S64 .f32) = V c main_arg6 := by
  obtain ⟨-, -, -, -, -, -, -, -, -, -, -, -, e0, -⟩ := idx_facts t
  funext y
  show V c main_arg6 (((cfg0.win 6).blk t).view.emb y) = V c main_arg6 y
  refine congrArg (V c main_arg6) ?_
  funext ax; apply Fin.ext
  match ax with
  | ⟨0, _⟩ => show win0_6.index t (0 : Fin 1) * 64 + 1 * (y 0).val = (y 0).val; rw [e0]; omega

theorem whole7 (c : Dev nD) (t : Fin cfg0.N) : (iblk0 V c 7 t : Vec Ideal S64x32 .f32) = V c main_arg7 := by
  obtain ⟨-, -, -, -, -, -, -, -, -, -, -, -, -, e0, e1, -⟩ := idx_facts t
  funext y
  show V c main_arg7 (((cfg0.win 7).blk t).view.emb y) = V c main_arg7 y
  refine congrArg (V c main_arg7) ?_
  funext ax; apply Fin.ext
  match ax with
  | ⟨0, _⟩ => show win0_7.index t (0 : Fin 2) * 64 + 1 * (y 0).val = (y 0).val; rw [e0]; omega
  | ⟨1, _⟩ => show win0_7.index t (1 : Fin 2) * 32 + 1 * (y 1).val = (y 1).val; rw [e1]; omega

theorem whole8 (c : Dev nD) (t : Fin cfg0.N) : (iblk0 V c 8 t : Vec Ideal S32 .f32) = V c main_arg8 := by
  obtain ⟨-, -, -, -, -, -, -, -, -, -, -, -, -, -, -, e0, -⟩ := idx_facts t
  funext y
  show V c main_arg8 (((cfg0.win 8).blk t).view.emb y) = V c main_arg8 y
  refine congrArg (V c main_arg8) ?_
  funext ax; apply Fin.ext
  match ax with
  | ⟨0, _⟩ => show win0_8.index t (0 : Fin 1) * 32 + 1 * (y 0).val = (y 0).val; rw [e0]; omega

/-- Entry (p, q) of point t's output block is entry (t * 5000 + p, q) of the output array. -/
theorem emb9 (t : Fin cfg0.N) (p : Fin 5000) (q : Fin 32) :
    ((cfg0.win 9).blk t).view.emb (ix2 p q) = ix2 (rowOf t p) q := by
  obtain ⟨-, -, -, -, -, -, -, -, -, -, -, -, -, -, -, -, e0, e1⟩ := idx_facts t
  funext ax; apply Fin.ext
  match ax with
  | ⟨0, _⟩ => show win0_9.index t (0 : Fin 2) * 5000 + 1 * p.val = t.val * 5000 + p.val; rw [e0]; omega
  | ⟨1, _⟩ => show win0_9.index t (1 : Fin 2) * 32 + 1 * q.val = q.val; rw [e1]; omega

/-! ## What a point writes back, and the whole array -/

/-- The edge network of the arrays region 0 is entered with. -/
abbrev edgeArr (c : Dev nD) : Mat 2000000 32 :=
  edgeOut (N := 2000000) (V c main_v6) (V c main_v13) (V c main_arg2) (V c main_v14) (V c main_v15) (V c main_v16)
    (V c main_arg6) (V c main_arg7) (V c main_arg8)

/-- What point t writes back is block t of the edge network of the whole arrays: the body computes the network
    of the block's rows, and row p of the block is row t * 5000 + p of each feature array. -/
theorem flushed_eq (c : Dev nD) (t : Fin cfg0.N) :
    (dat0 (F := Ideal) V c).flushed 9 t = ((cfg0.win 9).blk t).view.read (Elt Ideal) (edgeArr V c) := by
  show (cfg0.win 9).cut (grid0.coords t) ((dat0 (F := Ideal) V c).after 9 t) = _
  rw [after0_9]
  unfold out0_9
  rw [View.canon_unit_zero hz2]
  simp only [View.ld_unit_zero (S := S5000x32) hz2, View.ld_unit_zero (S := S5000x8) hz2, View.ld_unit_zero (S := S32x64) hz2,
    View.ld_unit_zero (S := S8x64) hz2, View.ld_unit_zero (S := S64) hz1, View.ld_unit_zero (S := S64x32) hz2,
    View.ld_unit_zero (S := S32) hz1]
  rw [edge_block, whole3, whole4, whole5, whole6, whole7, whole8]
  funext y
  obtain ⟨p, q, rfl⟩ : ∃ (p : Fin 5000) (q : Fin 32), y = ix2 p q := ⟨y 0, y 1, eq_ix2 y⟩
  show edgeAt (iblk0 V c 0 t) (iblk0 V c 1 t) (iblk0 V c 2 t) (V c main_v14) (V c main_v15) (V c main_v16) (V c main_arg6)
      (V c main_arg7) (V c main_arg8) p q = edgeArr V c (((cfg0.win 9).blk t).view.emb (ix2 p q))
  rw [emb9]
  exact edgeAt_rows _ _ _ _ _ _ _ _ _ _ _ _ p (rowOf t p) q (fun a => read0 V c t p a) (fun a => read1 V c t p a)
    (fun a => read2 V c t p a)

/-- An index of the output array is in point t's block iff each coordinate is in the block's range on its axis. -/
theorem mem_blk (t : Fin cfg0.N) (i : S2000000x32.Idx) :
    i ∈ ((cfg0.win 9).blk t).view.set ↔ ∀ a : Fin 2, win0_9.index t a * S5000x32.size a ≤ (i a).val
      ∧ (i a).val < win0_9.index t a * S5000x32.size a + S5000x32.size a := by
  show i ∈ ((View.whole main_v17).slice (win0_9.rect t)).set ↔ _
  rw [View.set_slice_whole, Rect.mem_set_unit]
  exact Iff.rfl

/-- The 400 blocks of 5000 rows tile the 2,000,000 rows: row r lies in the block of point r / 5000. -/
theorem cover (i : S2000000x32.Idx) :
    ∃ t : Fin cfg0.N, (cfg0.win 9).flush t = true ∧ i ∈ ((cfg0.win 9).blk t).view.set := by
  have hi0 : (i 0).val < 2000000 := (i 0).isLt
  have hi1 : (i 1).val < 32 := (i 1).isLt
  have ht : (i 0).val / 5000 < 400 := by omega
  obtain ⟨-, -, -, -, -, -, -, -, -, -, -, -, -, -, -, -, e0, e1⟩ := idx_facts ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 32 ≤ (i 1).val
      ∧ (i 1).val < win0_9.index ⟨(i 0).val / 5000, ht⟩ (1 : Fin 2) * 32 + 32
    rw [e1]; omega

/-- After the run of region 0 its output array holds the edge network of the arrays the region was entered with:
    the two gathered feature arrays, the edge values, the three row blocks of the first weight matrix, and the
    remaining weights and biases. -/
theorem edge_final (c : Dev nD) :
    (dat0 (F := Ideal) V c).arrAt 9 cfg0.N
      = edgeOut (N := 2000000) (V c main_v6) (V c main_v13) (V c main_arg2) (V c main_v14) (V c main_v15) (V c main_v16)
          (V c main_arg6) (V c main_arg7) (V c main_arg8) :=
  (dat0 (F := Ideal) V c).arrAt_eq_of_cover 9 _ (fun t _ => flushed_eq V c t) cover

end Cert.KernelIdeal.EdgeValue

end
-- ==== Proof.KernelSpec.lean ====
/-
  The two-region program's result as ONE function of its fifteen argument arrays.

  From the node features u, the features v, the edge values, the source and destination indices and the
  weights: gather rows of u by destination and rows of v by source (a negative index first wrapped by the
  array's height), run the edge network with the first weight matrix cut into its row blocks 0..31, 32..63,
  64..71, scatter-add its output over the destination index into a zero array, and run the node network on u
  and that aggregate with its first weight matrix cut into two row blocks.
-/
import proofs.«116639_j81475529605800_1_alg».proof.Proof.Gen.KernelIdeal
import proofs.«116639_j81475529605800_1_alg».proof.Proof.Spec

noncomputable section

namespace Cert.KernelIdeal.KSpec

open Cert.KernelIdeal Cert.KernelIdeal.Facts₀ Cert.GraphNet Idealize.ShloMosaic

/-- An array of shape s and element type e at the ideal values. -/
abbrev Arr (s : Shape) (e : EltTy) : Type := (⟨s, e⟩ : BufTy).Contents (Elt Ideal)

/-- An index vector with its negative entries wrapped by n, as a column. -/
def wrapIdx (n : BitVec 32) (x : Arr S2000000 .i32) : Arr S2000000x1 .i32 :=
  broadcastInDim S2000000x1 ![0] bcast_S2000000_S2000000x1_0
    (select (cmpi .slt x (broadcastInDim S2000000 ![] bcast_S_S2000000 (constantI S_ 32 0#32)))
      (addi x (broadcastInDim S2000000 ![] bcast_S_S2000000 (constantI S_ 32 n))) x)

/-- The rows of u at the destination indices. -/
def gatheredU (x0 : Arr S100000x32 .f32) (x4 : Arr S2000000 .i32) : Arr S2000000x32 .f32 :=
  Host.gather gather_S100000x32_S2000000x1_S2000000x32_1_0_n_n_0_1_132 x0 (wrapIdx 100000#32 x4)

/-- The rows of v at the source indices. -/
def gatheredV (x1 : Arr S50000x32 .f32) (x3 : Arr S2000000 .i32) : Arr S2000000x32 .f32 :=
  Host.gather gather_S50000x32_S2000000x1_S2000000x32_1_0_n_n_0_1_132 x1 (wrapIdx 50000#32 x3)

/-- The edge network of the gathered features and the edge values, the first weight matrix cut in three. -/
def edgeOfArgs (x0 : Arr S100000x32 .f32) (x1 : Arr S50000x32 .f32) (x2 : Arr S2000000x8 .f32) (x3 x4 : Arr S2000000 .i32)
    (x5 : Arr S72x64 .f32) (x6 : Arr S64 .f32) (x7 : Arr S64x32 .f32) (x8 : Arr S32 .f32) : Mat 2000000 32 :=
  edgeOut (N := 2000000) (gatheredU x0 x4) (gatheredV x1 x3) x2
    (extractStridedSlice S32x64 ![0, 0] x5 slices_S72x64_S32x64_0_0)
    (extractStridedSlice S32x64 ![32, 0] x5 slices_S72x64_S32x64_32_0)
    (extractStridedSlice S8x64 ![64, 0] x5 slices_S72x64_S8x64_64_0) x6 x7 x8

/-- The aggregate: the edge network's output scatter-added over the destination index into zeros. -/
def aggOfArgs (x0 : Arr S100000x32 .f32) (x1 : Arr S50000x32 .f32) (x2 : Arr S2000000x8 .f32) (x3 x4 : Arr S2000000 .i32)
    (x5 : Arr S72x64 .f32) (x6 : Arr S64 .f32) (x7 : Arr S64x32 .f32) (x8 : Arr S32 .f32) : Arr S100000x32 .f32 :=
  Host.scatterAdd (F := Ideal) scatter_S100000x32_S2000000x1_S2000000x32_1_0_0_1
    (broadcastInDim S100000x32 ![] bcast_S_S100000x32 (constant (F := Ideal) S_ .f32 0x00000000#32))
    (broadcastInDim S2000000x1 ![0] bcast_S2000000_S2000000x1_0 x4)
    (edgeOfArgs x0 x1 x2 x3 x4 x5 x6 x7 x8)

/-- The program's result: the node network of u and the aggregate, the first weight matrix cut in two. -/
def resultOfArgs (x0 : Arr S100000x32 .f32) (x1 : Arr S50000x32 .f32) (x2 : Arr S2000000x8 .f32) (x3 x4 : Arr S2000000 .i32)
    (x5 : Arr S72x64 .f32) (x6 : Arr S64 .f32) (x7 : Arr S64x32 .f32) (x8 : Arr S32 .f32) (x9 : Arr S64x64 .f32)
    (x10 : Arr S64 .f32) (x11 : Arr S64x32 .f32) (x12 : Arr S32 .f32) (x13 : Arr S32x1 .f32) (x14 : Arr S1 .f32) : Mat 100000 1 :=
  nodeOut (N := 100000) x0 (aggOfArgs x0 x1 x2 x3 x4 x5 x6 x7 x8)
    (extractStridedSlice S32x64 ![0, 0] x9 slices_S64x64_S32x64_0_0)
    (extractStridedSlice S32x64 ![32, 0] x9 slices_S64x64_S32x64_32_0) x10 x11 x12 x13 x14

end Cert.KernelIdeal.KSpec

end
-- ==== Proof.HostSide.lean ====
/-
  What each region finds in its arrays, as functions of the memory the program was launched with.

  Before the first region the host gathers rows of the node features u by the destination index and rows of v by
  the source index, and cuts the first weight matrix into its row blocks.  Between the regions it scatter-adds
  the first region's output over the destination index into a zero array, and cuts the node network's first
  weight matrix into its two row blocks.  Every other array a region reads is an argument, untouched since the
  launch.  So the first region leaves the edge network of the arguments in its output array, and the second
  region is entered with the aggregate of that.
-/
import proofs.«116639_j81475529605800_1_alg».proof.Proof.Gen.KernelIdeal.Frame
import proofs.«116639_j81475529605800_1_alg».proof.Proof.EdgeValue
import proofs.«116639_j81475529605800_1_alg».proof.Proof.KernelSpec
import Idealize.ShloMosaic.Lib.StableHlo.Run

set_option maxRecDepth 16384

noncomputable section

namespace Cert.KernelIdeal.HostSide

open Cert.KernelIdeal Cert.KernelIdeal.Gen Cert.KernelIdeal.KSpec Cert.GraphNet
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Region 0's arrays -/

theorem in0_v6 (c : Dev nD) : V1 m ρ c main_v6 = gatheredU (m ((c.tc : Thread nD τ).loc main_arg0)) (m ((c.tc : Thread nD τ).loc main_arg4)) := by
  unfold gatheredU wrapIdx
  show StableHlo.after hostOps0 (W0 m ρ c) (Proc.devRef .tc main_v6) = _
  after_results

theorem in0_v13 (c : Dev nD) : V1 m ρ c main_v13 = gatheredV (m ((c.tc : Thread nD τ).loc main_arg1)) (m ((c.tc : Thread nD τ).loc main_arg3)) := by
  unfold gatheredV wrapIdx
  show StableHlo.after hostOps0 (W0 m ρ c) (Proc.devRef .tc main_v13) = _
  after_results

theorem in0_arg2 (c : Dev nD) : V1 m ρ c main_arg2 = (m ((c.tc : Thread nD τ).loc main_arg2)) := by
  show StableHlo.after hostOps0 (W0 m ρ c) (Proc.devRef .tc main_arg2) = _
  after_results

theorem in0_v14 (c : Dev nD) : V1 m ρ c main_v14 = extractStridedSlice S32x64 ![0, 0] (m ((c.tc : Thread nD τ).loc main_arg5)) slices_S72x64_S32x64_0_0 := by
  show StableHlo.after hostOps0 (W0 m ρ c) (Proc.devRef .tc main_v14) = _
  after_results

theorem in0_v15 (c : Dev nD) : V1 m ρ c main_v15 = extractStridedSlice S32x64 ![32, 0] (m ((c.tc : Thread nD τ).loc main_arg5)) slices_S72x64_S32x64_32_0 := by
  show StableHlo.after hostOps0 (W0 m ρ c) (Proc.devRef .tc main_v15) = _
  after_results

theorem in0_v16 (c : Dev nD) : V1 m ρ c main_v16 = extractStridedSlice S8x64 ![64, 0] (m ((c.tc : Thread nD τ).loc main_arg5)) slices_S72x64_S8x64_64_0 := by
  show StableHlo.after hostOps0 (W0 m ρ c) (Proc.devRef .tc main_v16) = _
  after_results

theorem in0_arg6 (c : Dev nD) : V1 m ρ c main_arg6 = (m ((c.tc : Thread nD τ).loc main_arg6)) := by
  show StableHlo.after hostOps0 (W0 m ρ c) (Proc.devRef .tc main_arg6) = _
  after_results

theorem in0_arg7 (c : Dev nD) : V1 m ρ c main_arg7 = (m ((c.tc : Thread nD τ).loc main_arg7)) := by
  show StableHlo.after hostOps0 (W0 m ρ c) (Proc.devRef .tc main_arg7) = _
  after_results

theorem in0_arg8 (c : Dev nD) : V1 m ρ c main_arg8 = (m ((c.tc : Thread nD τ).loc main_arg8)) := by
  show StableHlo.after hostOps0 (W0 m ρ c) (Proc.devRef .tc main_arg8) = _
  after_results

/-- After region 0 its output array holds the edge network of the arguments. -/
theorem out0 (c : Dev nD) :
    W2 m ρ c (Proc.devRef .tc main_v17) = edgeOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := (W2_arr m ρ c 9).trans (EdgeValue.edge_final (V1 m ρ) c)
  rw [in0_v6, in0_v13, in0_arg2, in0_v14, in0_v15, in0_v16, in0_arg6, in0_arg7, in0_arg8] at h
  exact h

/-! ## Region 1's arrays -/

theorem in1_arg0 (c : Dev nD) : V3 m ρ c main_arg0 = (m ((c.tc : Thread nD τ).loc main_arg0)) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

theorem w2_arg4 (c : Dev nD) : W2 m ρ c (Proc.devRef .tc main_arg4) = (m ((c.tc : Thread nD τ).loc main_arg4)) := by
  rw [W2_of_ne m ρ c main_arg4 (by decide)]
  show StableHlo.after hostOps0 (W0 m ρ c) (Proc.devRef .tc main_arg4) = _
  after_results

theorem w2_arg9 (c : Dev nD) : W2 m ρ c (Proc.devRef .tc main_arg9) = (m ((c.tc : Thread nD τ).loc main_arg9)) := by
  rw [W2_of_ne m ρ c main_arg9 (by decide)]
  show StableHlo.after hostOps0 (W0 m ρ c) (Proc.devRef .tc main_arg9) = _
  after_results

theorem in1_v20 (c : Dev nD) : V3 m ρ c main_v20 = aggOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold aggOfArgs
  show StableHlo.after hostOps1 (W2 m ρ c) (Proc.devRef .tc main_v20) = _
  after_results
  rw [w2_arg4, out0]

theorem in1_v21 (c : Dev nD) :
    V3 m ρ c main_v21 = extractStridedSlice S32x64 ![0, 0] (m ((c.tc : Thread nD τ).loc main_arg9)) slices_S64x64_S32x64_0_0 := by
  show StableHlo.after hostOps1 (W2 m ρ c) (Proc.devRef .tc main_v21) = _
  after_results
  rw [w2_arg9]

theorem in1_v22 (c : Dev nD) :
    V3 m ρ c main_v22 = extractStridedSlice S32x64 ![32, 0] (m ((c.tc : Thread nD τ).loc main_arg9)) slices_S64x64_S32x64_32_0 := by
  show StableHlo.after hostOps1 (W2 m ρ c) (Proc.devRef .tc main_v22) = _
  after_results
  rw [w2_arg9]

theorem in1_arg10 (c : Dev nD) : V3 m ρ c main_arg10 = (m ((c.tc : Thread nD τ).loc main_arg10)) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

theorem in1_arg11 (c : Dev nD) : V3 m ρ c main_arg11 = (m ((c.tc : Thread nD τ).loc main_arg11)) := by
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results

theorem in1_arg12 (c : Dev nD) : V3 m ρ c main_arg12 = (m ((c.tc : Thread nD τ).loc main_arg12)) := by
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results

theorem in1_arg13 (c : Dev nD) : V3 m ρ c main_arg13 = (m ((c.tc : Thread nD τ).loc main_arg13)) := by
  show StableHlo.after hostOps1 (W2 m ρ c) (Proc.devRef .tc main_arg13) = _
  after_results
  rw [W2_of_ne m ρ c main_arg13 (by decide)]
  show StableHlo.after hostOps0 (W0 m ρ c) (Proc.devRef .tc main_arg13) = _
  after_results

theorem in1_arg14 (c : Dev nD) : V3 m ρ c main_arg14 = (m ((c.tc : Thread nD τ).loc main_arg14)) := by
  show StableHlo.after hostOps1 (W2 m ρ c) (Proc.devRef .tc main_arg14) = _
  after_results
  rw [W2_of_ne m ρ c main_arg14 (by decide)]
  show StableHlo.after hostOps0 (W0 m ρ c) (Proc.devRef .tc main_arg14) = _
  after_results

end Cert.KernelIdeal.HostSide

end
-- ==== Proof.NodeValue.lean ====
/-
  The node region's output array after its 20 grid points: the node network of the arrays the region finds.
-/
import proofs.«116639_j81475529605800_1_alg».proof.Proof.Gen.KernelIdeal.Frame
import proofs.«116639_j81475529605800_1_alg».proof.Proof.Spec
import proofs.«116639_j81475529605800_1_alg».proof.Proof.KDots
import proofs.«116639_j81475529605800_1_alg».proof.Proof.SpecRows
import proofs.«116639_j81475529605800_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Cert.GraphNet Cert.KernelIdeal.KDots
open Idealize.ShloMosaic Idealize.ShloMosaic.TcCoe Idealize.ShloMosaic.ValueIdx Idealize.SL.Sem
open Idealize.ShloMosaic.Pipeline (Dat Cfg Window)

/-! ## The kernel's arithmetic on one block of 5000 rows -/

/-- The logistic function of an array, read at an index. -/
theorem logistic_at {s : Shape} {φ : FTy} (v : FVec Ideal s φ) (i : s.Idx) : logistic v i = Ideal.logistic (v i) := rfl

/-- The zero word of the 32-bit format is the extended real 0. -/
theorem zero_word : (FloatOps.ofBits FTy.f32 0x00000000#32 : Ideal .f32) = (0 : EReal) := Ideal.ofBits_zero_f32

/-- On a block of 5000 rows the body's arithmetic followed by the logistic function is the node network of that block:
    each matrix product is read at an entry as its sum, each bias at its column, each maximum with the zero splat as a
    maximum with 0, and a change of float format is the identity on extended reals. -/
theorem node_block (x0 x1 : Vec Ideal S5000x32 .f32) (x2 x3 : Vec Ideal S32x64 .f32) (x4 : Vec Ideal S64 .f32)
    (x5 : Vec Ideal S64x32 .f32) (x6 : Vec Ideal S32 .f32) (x7 : Vec Ideal S32x1 .f32) (x8 : Vec Ideal S1 .f32) :
    k1_pay1 (k1_pay2 x0 x1 x2 x3 x4 x5 x6 x7 x8) = nodeOut (N := 5000) x0 x1 x2 x3 x4 x5 x6 x7 x8 := by
  funext j
  obtain ⟨p, q, rfl⟩ : ∃ (p : Fin 5000) (q : Fin 1), j = ix2 p q := ⟨j 0, j 1, eq_ix2 j⟩
  unfold k1_pay1 k1_pay2
  show _ = nodeAt x0 x1 x2 x3 x4 x5 x6 x7 x8 p q
  unfold nodeAt nodeHidden2 nodeHidden
  dsimp only
  simp only [logistic_at, addf_apply, maximumf_apply, truncf_apply, broadcast_apply, shapeCast_self, mm_a, mm_c, mm_d, bias_row, zero_word]

/-! ## From the blocks to the array -/

variable (V : (c : Dev nD) → (b : Ref sig .tc) → Buf (Elt Ideal) ((c : Thread nD τ).loc b))

/-- The zero offsets of a rank-2 and of a rank-1 whole-buffer rectangle. -/
theorem off2_zero : (![0, 0] : Fin 2 → Nat) = fun _ => 0 := funext fun a => by fin_cases a <;> rfl
theorem off1_zero : (![0] : Fin 1 → Nat) = fun _ => 0 := funext fun a => by fin_cases a; rfl

/-- The printed index maps, decided once over the 20 grid points: the two feature windows and the output window sit
    at block row t and block column 0; every weight and bias window sits at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Row p of the node-feature window's block at point t is row 5000 t + p of the node-feature array. -/
theorem feat_rows (c : Dev nD) (t : Fin cfg1.N) (p : Fin 5000) (a : Fin 32) (n : Fin 100000)
    (hn : n.val = t.val * 5000 + p.val) :
    (iblk1 V c 0 t : Vec Ideal S5000x32 .f32) (ix2 p a) = (V c main_arg0 : S100000x32.Idx → EReal) (ix2 n a) := by
  obtain ⟨e0, e1, -⟩ := idx_facts t
  unfold iblk1
  rw [View.read_apply]
  show V c main_arg0 _ = V c main_arg0 _
  congr 1
  funext ax
  apply Fin.ext
  match ax with
  | ⟨0, _⟩ => show win1_0.index t (0 : Fin 2) * 5000 + 1 * p.val = n.val; rw [e0, hn]; omega
  | ⟨1, _⟩ => show win1_0.index t (1 : Fin 2) * 32 + 1 * a.val = a.val; rw [e1]; omega

/-- Row p of the aggregate window's block at point t is row 5000 t + p of the aggregate array. -/
theorem agg_rows (c : Dev nD) (t : Fin cfg1.N) (p : Fin 5000) (a : Fin 32) (n : Fin 100000)
    (hn : n.val = t.val * 5000 + p.val) :
    (iblk1 V c 1 t : Vec Ideal S5000x32 .f32) (ix2 p a) = (V c main_v20 : S100000x32.Idx → EReal) (ix2 n a) := by
  obtain ⟨-, -, e0, e1, -⟩ := idx_facts t
  unfold iblk1
  rw [View.read_apply]
  show V c main_v20 _ = V c main_v20 _
  congr 1
  funext ax
  apply Fin.ext
  match ax with
  | ⟨0, _⟩ => show win1_1.index t (0 : Fin 2) * 5000 + 1 * p.val = n.val; rw [e0, hn]; omega
  | ⟨1, _⟩ => show win1_1.index t (1 : Fin 2) * 32 + 1 * a.val = a.val; rw [e1]; omega

/-- The one block of the first weight matrix's upper row block is that whole array, at every point. -/
theorem wu_whole (c : Dev nD) (t : Fin cfg1.N) :
    (iblk1 V c 2 t : Vec Ideal S32x64 .f32) = (V c main_v21 : S32x64.Idx → EReal) := by
  obtain ⟨-, -, -, -, e20, e21, e30, e31, e40, e50, e51, e60, e70, e71, e80, -, -⟩ := idx_facts t
  unfold iblk1
  funext y
  rw [View.read_apply]
  show V c main_v21 _ = V c main_v21 y
  congr 1
  funext ax
  apply Fin.ext
  match ax with
  | ⟨0, _⟩ => show win1_2.index t (0 : Fin 2) * 32 + 1 * (y 0).val = (y 0).val; rw [e20]; omega
  | ⟨1, _⟩ => show win1_2.index t (1 : Fin 2) * 64 + 1 * (y 1).val = (y 1).val; rw [e21]; omega

/-- The one block of the first weight matrix's lower row block is that whole array, at every point. -/
theorem wa_whole (c : Dev nD) (t : Fin cfg1.N) :
    (iblk1 V c 3 t : Vec Ideal S32x64 .f32) = (V c main_v22 : S32x64.Idx → EReal) := by
  obtain ⟨-, -, -, -, e20, e21, e30, e31, e40, e50, e51, e60, e70, e71, e80, -, -⟩ := idx_facts t
  unfold iblk1
  funext y
  rw [View.read_apply]
  show V c main_v22 _ = V c main_v22 y
  congr 1
  funext ax
  apply Fin.ext
  match ax with
  | ⟨0, _⟩ => show win1_3.index t (0 : Fin 2) * 32 + 1 * (y 0).val = (y 0).val; rw [e30]; omega
  | ⟨1, _⟩ => show win1_3.index t (1 : Fin 2) * 64 + 1 * (y 1).val = (y 1).val; rw [e31]; omega

/-- The one block of the first bias is the whole bias, at every point. -/
theorem c1_whole (c : Dev nD) (t : Fin cfg1.N) :
    (iblk1 V c 4 t : Vec Ideal S64 .f32) = (V c main_arg10 : S64.Idx → EReal) := by
  obtain ⟨-, -, -, -, e20, e21, e30, e31, e40, e50, e51, e60, e70, e71, e80, -, -⟩ := idx_facts t
  unfold iblk1
  funext y
  rw [View.read_apply]
  show V c main_arg10 _ = V c main_arg10 y
  congr 1
  funext ax
  apply Fin.ext
  match ax with
  | ⟨0, _⟩ => show win1_4.index t (0 : Fin 1) * 64 + 1 * (y 0).val = (y 0).val; rw [e40]; omega

/-- The one block of the second weight matrix is the whole matrix, at every point. -/
theorem v2_whole (c : Dev nD) (t : Fin cfg1.N) :
    (iblk1 V c 5 t : Vec Ideal S64x32 .f32) = (V c main_arg11 : S64x32.Idx → EReal) := by
  obtain ⟨-, -, -, -, e20, e21, e30, e31, e40, e50, e51, e60, e70, e71, e80, -, -⟩ := idx_facts t
  unfold iblk1
  funext y
  rw [View.read_apply]
  show V c main_arg11 _ = V c main_arg11 y
  congr 1
  funext ax
  apply Fin.ext
  match ax with
  | ⟨0, _⟩ => show win1_5.index t (0 : Fin 2) * 64 + 1 * (y 0).val = (y 0).val; rw [e50]; omega
  | ⟨1, _⟩ => show win1_5.index t (1 : Fin 2) * 32 + 1 * (y 1).val = (y 1).val; rw [e51]; omega

/-- The one block of the second bias is the whole bias, at every point. -/
theorem c2_whole (c : Dev nD) (t : Fin cfg1.N) :
    (iblk1 V c 6 t : Vec Ideal S32 .f32) = (V c main_arg12 : S32.Idx → EReal) := by
  obtain ⟨-, -, -, -, e20, e21, e30, e31, e40, e50, e51, e60, e70, e71, e80, -, -⟩ := idx_facts t
  unfold iblk1
  funext y
  rw [View.read_apply]
  show V c main_arg12 _ = V c main_arg12 y
  congr 1
  funext ax
  apply Fin.ext
  match ax with
  | ⟨0, _⟩ => show win1_6.index t (0 : Fin 1) * 32 + 1 * (y 0).val = (y 0).val; rw [e60]; omega

/-- The one block of the output column is the whole column, at every point. -/
theorem t_whole (c : Dev nD) (t : Fin cfg1.N) :
    (iblk1 V c 7 t : Vec Ideal S32x1 .f32) = (V c main_arg13 : S32x1.Idx → EReal) := by
  obtain ⟨-, -, -, -, e20, e21, e30, e31, e40, e50, e51, e60, e70, e71, e80, -, -⟩ := idx_facts t
  unfold iblk1
  funext y
  rw [View.read_apply]
  show V c main_arg13 _ = V c main_arg13 y
  congr 1
  funext ax
  apply Fin.ext
  match ax with
  | ⟨0, _⟩ => show win1_7.index t (0 : Fin 2) * 32 + 1 * (y 0).val = (y 0).val; rw [e70]; omega
  | ⟨1, _⟩ => show win1_7.index t (1 : Fin 2) * 1 + 1 * (y 1).val = (y 1).val; rw [e71]; omega

/-- The one block of the output bias is the whole bias, at every point. -/
theorem d_whole (c : Dev nD) (t : Fin cfg1.N) :
    (iblk1 V c 8 t : Vec Ideal S1 .f32) = (V c main_arg14 : S1.Idx → EReal) := by
  obtain ⟨-, -, -, -, e20, e21, e30, e31, e40, e50, e51, e60, e70, e71, e80, -, -⟩ := idx_facts t
  unfold iblk1
  funext y
  rw [View.read_apply]
  show V c main_arg14 _ = V c main_arg14 y
  congr 1
  funext ax
  apply Fin.ext
  match ax with
  | ⟨0, _⟩ => show win1_8.index t (0 : Fin 1) * 1 + 1 * (y 0).val = (y 0).val; rw [e80]; omega

/-- WHAT POINT t WRITES BACK is block t of the node network of the whole arrays. -/
theorem flushed_eq (c : Dev nD) (t : Fin cfg1.N) :
    (dat1 (F := Ideal) V c).flushed 9 t = ((cfg1.win 9).blk t).view.read (Elt Ideal)
      (nodeOut (N := 100000) (V c main_arg0) (V c main_v20) (V c main_v21) (V c main_v22) (V c main_arg10) (V c main_arg11)
        (V c main_arg12) (V c main_arg13) (V c main_arg14)) := by
  show (cfg1.win 9).cut (grid1.coords t) ((dat1 V c).after 9 t) = _
  rw [after1_9]
  unfold out1_9
  rw [View.canon_unit_zero off2_zero]
  simp only [View.ld_unit_zero (S := S5000x32) off2_zero, View.ld_unit_zero (S := S32x64) off2_zero, View.ld_unit_zero (S := S64) off1_zero,
    View.ld_unit_zero (S := S64x32) off2_zero, View.ld_unit_zero (S := S32) off1_zero, View.ld_unit_zero (S := S32x1) off2_zero,
    View.ld_unit_zero (S := S1) off1_zero]
  rw [node_block, wu_whole, wa_whole, c1_whole, v2_whole, c2_whole, t_whole, d_whole]
  obtain ⟨-, -, -, -, -, -, -, -, -, -, -, -, -, -, -, e90, e91⟩ := idx_facts t
  funext y
  have hrow : (((cfg1.win 9).blk t).view.emb y 0 : Fin 100000).val = t.val * 5000 + (y 0 : Fin 5000).val := by
    show win1_9.index t (0 : Fin 2) * 5000 + 1 * (y 0).val = _
    rw [e90]; omega
  have hcol : (((cfg1.win 9).blk t).view.emb y 1 : Fin 1) = (y 1 : Fin 1) := Fin.ext (by
    show win1_9.index t (1 : Fin 2) * 1 + 1 * (y 1).val = (y 1).val
    rw [e91]; omega)
  show nodeAt (N := 5000) _ _ _ _ _ _ _ _ _ (y 0) (y 1)
    = nodeAt (N := 100000) _ _ _ _ _ _ _ _ _ (((cfg1.win 9).blk t).view.emb y 0) (((cfg1.win 9).blk t).view.emb y 1)
  refine (nodeAt_rows (N := 5000) (M := 100000) (iblk1 V c 0 t) (iblk1 V c 1 t) (V c main_arg0) (V c main_v20) (V c main_v21) (V c main_v22)
    (V c main_arg10) (V c main_arg11) (V c main_arg12) (V c main_arg13) (V c main_arg14) (y 0) (((cfg1.win 9).blk t).view.emb y 0) (y 1)
    (fun s => feat_rows V c t (y 0) s _ hrow) (fun s => agg_rows V c t (y 0) s _ hrow)).trans ?_
  exact congrArg (nodeAt (N := 100000) (V c main_arg0) (V c main_v20) (V c main_v21) (V c main_v22)
    (V c main_arg10) (V c main_arg11) (V c main_arg12) (V c main_arg13) (V c main_arg14) (((cfg1.win 9).blk t).view.emb y 0)) hcol.symm

/-- An index of the output array lies in point t's block exactly when each coordinate lies in the block's range on its axis. -/
theorem mem_blk (t : Fin cfg1.N) (i : S100000x1.Idx) :
    i ∈ ((cfg1.win 9).blk t).view.set ↔ ∀ a : Fin 2, win1_9.index t a * S5000x1.size a ≤ (i a).val
      ∧ (i a).val < win1_9.index t a * S5000x1.size a + S5000x1.size a := by
  show i ∈ ((View.whole main_v23).slice (win1_9.rect t)).set ↔ _
  rw [View.set_slice_whole, Rect.mem_set_unit]
  exact Iff.rfl

/-- THE COVER: the 20 blocks of 5000 rows tile the 100000 rows, so row r lies in the block of point r / 5000. -/
theorem cover (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN : (i 0).val / 5000 < cfg1.N := by show (i 0).val / 5000 < 20; omega
  obtain ⟨t, ht⟩ : ∃ t : Fin cfg1.N, t.val = (i 0).val / 5000 := ⟨⟨_, hN⟩, rfl⟩
  obtain ⟨-, -, -, -, -, -, -, -, -, -, -, -, -, -, -, e90, e91⟩ := idx_facts t
  refine ⟨t, flush1_9 t, ?_⟩
  rw [mem_blk]
  intro a
  match a with
  | ⟨0, _⟩ =>
    show win1_9.index t (0 : Fin 2) * 5000 ≤ (i 0).val ∧ (i 0).val < win1_9.index t (0 : Fin 2) * 5000 + 5000
    rw [e90, ht]; omega
  | ⟨1, _⟩ =>
    show win1_9.index t (1 : Fin 2) * 1 ≤ (i 1).val ∧ (i 1).val < win1_9.index t (1 : Fin 2) * 1 + 1
    rw [e91]; omega

/-- After the run of region 1 its output array holds the node network of the arrays the region was entered with:
    the node features, the aggregated edge outputs, the two row blocks of the first weight matrix, and the
    remaining weights and biases. -/
theorem node_final (c : Dev nD) :
    (dat1 (F := Ideal) V c).arrAt 9 cfg1.N
      = nodeOut (N := 100000) (V c main_arg0) (V c main_v20) (V c main_v21) (V c main_v22) (V c main_arg10) (V c main_arg11)
          (V c main_arg12) (V c main_arg13) (V c main_arg14) :=
  (dat1 V c).arrAt_eq_of_cover 9 _ (fun t _ => flushed_eq V c t) cover

end Cert.KernelIdeal.NodeValue

end
-- ==== Proof.KernelResult.lean ====
/-
  The two-region program's result buffer after the run: the node network of the node features and the
  aggregated edge outputs, all as functions of the fifteen arguments.
-/
import proofs.«116639_j81475529605800_1_alg».proof.Proof.HostSide
import proofs.«116639_j81475529605800_1_alg».proof.Proof.NodeValue
import proofs.«116639_j81475529605800_1_alg».proof.Proof.KRun

set_option maxRecDepth 16384

noncomputable section

namespace Cert.KernelIdeal.Result

open Cert.KernelIdeal Cert.KernelIdeal.Gen Cert.KernelIdeal.KSpec Cert.KernelIdeal.HostSide Cert.GraphNet
open Idealize.ShloMosaic Idealize.ShloMosaic.TcCoe Idealize.SL.Sem

variable (m : (ℓ : Loc nD τ sig) → Buf (Elt Ideal) ℓ) (ρ : Dev nD → PrngReg)

/-- After region 1 the result buffer holds the program's result as a function of the arguments. -/
theorem out1 (c : Dev nD) :
    W4 m ρ c (Proc.devRef .tc main_v23) = resultOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := (W4_arr m ρ c 9).trans (NodeValue.node_final (V3 m ρ) c)
  rw [in1_arg0, in1_v20, in1_v21, in1_v22, in1_arg10, in1_arg11, in1_arg12, in1_arg13, in1_arg14] at h
  exact h

/-- Every weakly fair execution of the two-region program terminates, nothing faulting, with the result buffer at
    the node network of the arguments and the arguments unchanged. -/
theorem run_value : θ_run defs (onTc (τ := τ) (main (F := Ideal))) ⟨m, fun _ => 0, ρ⟩ (fun r => ∀ c : Dev nD,
      r.2.mem ((c.tc : Thread nD τ).loc main_v23) = resultOfArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (out1 m ρ c), (h c).2⟩) (RunNamed.run_named (F := Ideal) m ρ)

end Cert.KernelIdeal.Result

end
-- ==== Proof.RefValue.lean ====
/-
  The reference, read at an index: its edge stage is the edge network over the concatenated row, its result the
  node network over the concatenated row, and each concatenation read on its pieces.
-/
import proofs.«116639_j81475529605800_1_alg».proof.Proof.Gen.ReferenceIdeal.Read
import proofs.«116639_j81475529605800_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Cert.GraphNet
open Idealize.ShloMosaic Idealize.ShloMosaic.TcCoe Idealize.ShloMosaic.ValueIdx Idealize.SL.Sem

variable (x0 : (⟨S100000x32, .f32⟩ : BufTy).Contents (Elt Ideal)) (x1 : (⟨S50000x32, .f32⟩ : BufTy).Contents (Elt Ideal))
  (x2 : (⟨S2000000x8, .f32⟩ : BufTy).Contents (Elt Ideal)) (x3 x4 : (⟨S2000000, .i32⟩ : BufTy).Contents (Elt Ideal))
  (x5 : (⟨S72x64, .f32⟩ : BufTy).Contents (Elt Ideal)) (x6 : (⟨S64, .f32⟩ : BufTy).Contents (Elt Ideal))
  (x7 : (⟨S64x32, .f32⟩ : BufTy).Contents (Elt Ideal)) (x8 : (⟨S32, .f32⟩ : BufTy).Contents (Elt Ideal))
  (x9 : (⟨S64x64, .f32⟩ : BufTy).Contents (Elt Ideal)) (x10 : (⟨S64, .f32⟩ : BufTy).Contents (Elt Ideal))
  (x11 : (⟨S64x32, .f32⟩ : BufTy).Contents (Elt Ideal)) (x12 : (⟨S32, .f32⟩ : BufTy).Contents (Elt Ideal))
  (x13 : (⟨S32x1, .f32⟩ : BufTy).Contents (Elt Ideal)) (x14 : (⟨S1, .f32⟩ : BufTy).Contents (Elt Ideal))

/-- The hidden layer of the edge stage at row e and unit k. -/
theorem edge_hidden (e : Fin 2000000) (k : Fin 64) :
    val_main_v19 (F := Ideal) x0 x1 x2 x3 x4 x5 x6 (ix2 e k)
      = edgeHiddenCat (N := 2000000) (val_main_v14 (F := Ideal) x0 x1 x2 x3 x4) x5 x6 e k := by
  rw [val_main_v19_apply, val_main_v18_apply, val_main_v15_apply, val_main_v17_apply, val_main_v16_apply,
    val_main_call0_v0_apply, val_main_call0_cst_apply]
  unfold edgeHiddenCat
  generalize val_main_v14 (F := Ideal) x0 x1 x2 x3 x4 = y
  have hl : ∀ a : Fin 72, lidx_main_v15 (ix2 e k) a = ix2 e a := fun a =>
    funext fun d => by match d with | ⟨0, _⟩ => rfl | ⟨1, _⟩ => rfl
  have hr : ∀ a : Fin 72, ridx_main_v15 (ix2 e k) a = ix2 a k := fun a =>
    funext fun d => by match d with | ⟨0, _⟩ => rfl | ⟨1, _⟩ => rfl
  have hb : idx_main_v16 (idx_main_v17 (ix2 e k)) = ix1 k :=
    funext fun d => by match d with | ⟨0, _⟩ => rfl
  simp only [hl, hr, hb, Ideal.maximumf_def, Ideal.addf_def, Ideal.ofBits_def, Ideal.ofBits_zero_f32]

/-- The reference's edge stage (the array its segment sum scatters) is the edge network over the concatenated row. -/
theorem edge_stage :
    val_main_v24 (F := Ideal) x0 x1 x2 x3 x4 x5 x6 x7 x8
      = edgeOutCat (N := 2000000) (val_main_v14 (F := Ideal) x0 x1 x2 x3 x4) x5 x6 x7 x8 := by
  funext i
  obtain ⟨e, q, rfl⟩ : ∃ (e : Fin 2000000) (q : Fin 32), i = ix2 e q := ⟨i 0, i 1, eq_ix2 i⟩
  show _ = edgeAtCat (N := 2000000) (val_main_v14 (F := Ideal) x0 x1 x2 x3 x4) x5 x6 x7 x8 e q
  rw [val_main_v24_apply, val_main_v23_apply, val_main_v20_apply, val_main_v22_apply, val_main_v21_apply,
    val_main_call1_v0_apply, val_main_call1_cst_apply]
  unfold edgeAtCat
  have hl : ∀ k : Fin 64, lidx_main_v20 (ix2 e q) k = ix2 e k := fun k =>
    funext fun d => by match d with | ⟨0, _⟩ => rfl | ⟨1, _⟩ => rfl
  have hr : ∀ k : Fin 64, ridx_main_v20 (ix2 e q) k = ix2 k q := fun k =>
    funext fun d => by match d with | ⟨0, _⟩ => rfl | ⟨1, _⟩ => rfl
  have hb : idx_main_v21 (idx_main_v22 (ix2 e q)) = ix1 q :=
    funext fun d => by match d with | ⟨0, _⟩ => rfl
  simp only [hl, hr, hb, edge_hidden, Ideal.maximumf_def, Ideal.addf_def, Ideal.ofBits_def, Ideal.ofBits_zero_f32]

/-- Columns 0..31 of the concatenated edge row are the first gathered array's. -/
theorem cat_edge_x (e : Fin 2000000) (a : Fin 32) :
    val_main_v14 (F := Ideal) x0 x1 x2 x3 x4 (ix2 e ⟨a.val, by omega⟩) = val_main_v6 (F := Ideal) x0 x4 (ix2 e a) := by
  unfold val_main_v14
  generalize val_main_v6 (F := Ideal) x0 x4 = p
  generalize val_main_v13 (F := Ideal) x1 x3 = q
  exact concatenate_apply_piece (t := S2000000x72) (1 : Fin 2) [⟨S2000000x32, p⟩, ⟨S2000000x32, q⟩, ⟨S2000000x8, x2⟩] _
    (ix2 e ⟨a.val, by omega⟩) 0 (by simp) S2000000x32 p rfl rfl 0 rfl (ix2 e a)
    (fun b hb => by match b with | ⟨0, _⟩ => rfl | ⟨1, _⟩ => exact absurd rfl hb)
    (Nat.zero_add _)

/-- Columns 32..63 of the concatenated edge row are the second gathered array's. -/
theorem cat_edge_y (e : Fin 2000000) (a : Fin 32) :
    val_main_v14 (F := Ideal) x0 x1 x2 x3 x4 (ix2 e ⟨32 + a.val, by omega⟩) = val_main_v13 (F := Ideal) x1 x3 (ix2 e a) := by
  unfold val_main_v14
  generalize val_main_v6 (F := Ideal) x0 x4 = p
  generalize val_main_v13 (F := Ideal) x1 x3 = q
  exact concatenate_apply_piece (t := S2000000x72) (1 : Fin 2) [⟨S2000000x32, p⟩, ⟨S2000000x32, q⟩, ⟨S2000000x8, x2⟩] _
    (ix2 e ⟨32 + a.val, by omega⟩) 1 (by simp) S2000000x32 q rfl rfl 32 rfl (ix2 e a)
    (fun b hb => by match b with | ⟨0, _⟩ => rfl | ⟨1, _⟩ => exact absurd rfl hb)
    rfl

/-- Columns 64..71 of the concatenated edge row are the edge values'. -/
theorem cat_edge_z (e : Fin 2000000) (a : Fin 8) :
    val_main_v14 (F := Ideal) x0 x1 x2 x3 x4 (ix2 e ⟨64 + a.val, by omega⟩) = x2 (ix2 e a) := by
  unfold val_main_v14
  generalize val_main_v6 (F := Ideal) x0 x4 = p
  generalize val_main_v13 (F := Ideal) x1 x3 = q
  exact concatenate_apply_piece (t := S2000000x72) (1 : Fin 2) [⟨S2000000x32, p⟩, ⟨S2000000x32, q⟩, ⟨S2000000x8, x2⟩] _
    (ix2 e ⟨64 + a.val, by omega⟩) 2 (by simp) S2000000x8 x2 rfl rfl 64 rfl (ix2 e a)
    (fun b hb => by match b with | ⟨0, _⟩ => rfl | ⟨1, _⟩ => exact absurd rfl hb)
    rfl

/-- The first hidden layer of the node stage at row n and unit k. -/
theorem node_hidden (n : Fin 100000) (k : Fin 64) :
    val_main_v33 (F := Ideal) x0 x1 x2 x3 x4 x5 x6 x7 x8 x9 x10 (ix2 n k)
      = nodeHiddenCat (N := 100000) (val_main_v28 (F := Ideal) x0 x1 x2 x3 x4 x5 x6 x7 x8) x9 x10 n k := by
  rw [val_main_v33_apply, val_main_v32_apply, val_main_v29_apply, val_main_v31_apply, val_main_v30_apply,
    val_main_call2_v0_apply, val_main_call2_cst_apply]
  unfold nodeHiddenCat
  generalize val_main_v28 (F := Ideal) x0 x1 x2 x3 x4 x5 x6 x7 x8 = y
  have hl : ∀ s : Fin 64, lidx_main_v29 (ix2 n k) s = ix2 n s := fun s =>
    funext fun d => by match d with | ⟨0, _⟩ => rfl | ⟨1, _⟩ => rfl
  have hr : ∀ s : Fin 64, ridx_main_v29 (ix2 n k) s = ix2 s k := fun s =>
    funext fun d => by match d with | ⟨0, _⟩ => rfl | ⟨1, _⟩ => rfl
  have hb : idx_main_v30 (idx_main_v31 (ix2 n k)) = ix1 k :=
    funext fun d => by match d with | ⟨0, _⟩ => rfl
  simp only [hl, hr, hb, Ideal.maximumf_def, Ideal.addf_def, Ideal.ofBits_def, Ideal.ofBits_zero_f32]

/-- The second hidden layer of the node stage at row n and unit j. -/
theorem node_hidden2 (n : Fin 100000) (j : Fin 32) :
    val_main_v38 (F := Ideal) x0 x1 x2 x3 x4 x5 x6 x7 x8 x9 x10 x11 x12 (ix2 n j)
      = nodeHidden2Cat (N := 100000) (val_main_v28 (F := Ideal) x0 x1 x2 x3 x4 x5 x6 x7 x8) x9 x10 x11 x12 n j := by
  rw [val_main_v38_apply, val_main_v37_apply, val_main_v34_apply, val_main_v36_apply, val_main_v35_apply,
    val_main_call3_v0_apply, val_main_call3_cst_apply]
  unfold nodeHidden2Cat
  have hl : ∀ k : Fin 64, lidx_main_v34 (ix2 n j) k = ix2 n k := fun k =>
    funext fun d => by match d with | ⟨0, _⟩ => rfl | ⟨1, _⟩ => rfl
  have hr : ∀ k : Fin 64, ridx_main_v34 (ix2 n j) k = ix2 k j := fun k =>
    funext fun d => by match d with | ⟨0, _⟩ => rfl | ⟨1, _⟩ => rfl
  have hb : idx_main_v35 (idx_main_v36 (ix2 n j)) = ix1 j :=
    funext fun d => by match d with | ⟨0, _⟩ => rfl
  simp only [hl, hr, hb, node_hidden, Ideal.maximumf_def, Ideal.addf_def, Ideal.ofBits_def, Ideal.ofBits_zero_f32]

/-- The single-precision word of one denotes the extended real one. -/
theorem one_word : Ideal.ofBits .f32 0x3F800000#32 = 1 := by
  rw [show (1 : EReal) = ((1 : ℝ) : EReal) by norm_cast]
  simp [Ideal.ofBits, Ideal.ieee, -EReal.coe_mul]; norm_num

/-- The reference's result is the node network over the concatenated row. -/
theorem node_stage :
    val_main_v48 (F := Ideal) x0 x1 x2 x3 x4 x5 x6 x7 x8 x9 x10 x11 x12 x13 x14
      = nodeOutCat (N := 100000) (val_main_v28 (F := Ideal) x0 x1 x2 x3 x4 x5 x6 x7 x8) x9 x10 x11 x12 x13 x14 := by
  funext i
  obtain ⟨n, q, rfl⟩ : ∃ (n : Fin 100000) (q : Fin 1), i = ix2 n q := ⟨i 0, i 1, eq_ix2 i⟩
  show _ = nodeAtCat (N := 100000) (val_main_v28 (F := Ideal) x0 x1 x2 x3 x4 x5 x6 x7 x8) x9 x10 x11 x12 x13 x14 n q
  rw [val_main_v48_apply, val_main_v47_apply, val_main_cst_4_apply, val_main_v46_apply, val_main_v45_apply,
    val_main_cst_3_apply, val_main_v44_apply, val_main_v43_apply, val_main_v42_apply, val_main_v39_apply,
    val_main_v41_apply, val_main_v40_apply]
  unfold nodeAtCat
  have hl : ∀ j : Fin 32, lidx_main_v39 (ix2 n q) j = ix2 n j := fun j =>
    funext fun d => by match d with | ⟨0, _⟩ => rfl | ⟨1, _⟩ => rfl
  have hr : ∀ j : Fin 32, ridx_main_v39 (ix2 n q) j = ix2 j q := fun j =>
    funext fun d => by match d with | ⟨0, _⟩ => rfl | ⟨1, _⟩ => rfl
  have hb : idx_main_v40 (idx_main_v41 (ix2 n q)) = ix1 q :=
    funext fun d => by match d with | ⟨0, _⟩ => exact Fin.ext (by show 0 = q.val; have := q.isLt; omega)
  simp only [hl, hr, hb, node_hidden2, Ideal.hostDivf_def, Ideal.hostUnary_exp_def, Ideal.hostNegf_def, Ideal.negf_def,
    Ideal.addf_def, Ideal.ofBits_def, one_word]

/-- Columns 0..31 of the concatenated node row are the node features'. -/
theorem cat_node_u (n : Fin 100000) (s : Fin 32) :
    val_main_v28 (F := Ideal) x0 x1 x2 x3 x4 x5 x6 x7 x8 (ix2 n ⟨s.val, by omega⟩) = x0 (ix2 n s) := by
  unfold val_main_v28
  generalize val_main_v27 (F := Ideal) x0 x1 x2 x3 x4 x5 x6 x7 x8 = g
  exact concatenate_apply_piece (t := S100000x64) (1 : Fin 2) [⟨S100000x32, x0⟩, ⟨S100000x32, g⟩] _
    (ix2 n ⟨s.val, by omega⟩) 0 (by simp) S100000x32 x0 rfl rfl 0 rfl (ix2 n s)
    (fun b hb => by match b with | ⟨0, _⟩ => rfl | ⟨1, _⟩ => exact absurd rfl hb)
    (Nat.zero_add _)

/-- Columns 32..63 of the concatenated node row are the aggregate's. -/
theorem cat_node_a (n : Fin 100000) (s : Fin 32) :
    val_main_v28 (F := Ideal) x0 x1 x2 x3 x4 x5 x6 x7 x8 (ix2 n ⟨32 + s.val, by omega⟩)
      = val_main_v27 (F := Ideal) x0 x1 x2 x3 x4 x5 x6 x7 x8 (ix2 n s) := by
  unfold val_main_v28
  generalize val_main_v27 (F := Ideal) x0 x1 x2 x3 x4 x5 x6 x7 x8 = g
  exact concatenate_apply_piece (t := S100000x64) (1 : Fin 2) [⟨S100000x32, x0⟩, ⟨S100000x32, g⟩] _
    (ix2 n ⟨32 + s.val, by omega⟩) 1 (by simp) S100000x32 g rfl rfl 32 rfl (ix2 n s)
    (fun b hb => by match b with | ⟨0, _⟩ => rfl | ⟨1, _⟩ => exact absurd rfl hb)
    rfl

end Cert.ReferenceIdeal.RefValue

end
-- ==== Proof.Bridge.lean ====
/-
  The two programs compute one function of the fifteen arguments.

  The reference concatenates the gathered features and the edge values into rows of 72 numbers and multiplies by
  the whole first weight matrix; the kernel multiplies the three pieces by the matrix's three row blocks and adds.
  A sum over 72 indices is the sum of its stretches 0..31, 32..63, 64..71, so the two edge stages agree; the
  segment sum is the same operation applied to equal arrays; the node stage agrees the same way with a sum over
  64 indices split in two, and the logistic function is 1 / (1 + e^(-s)).  Nothing here needs finiteness:
  only associativity of addition is used.
-/
import proofs.«116639_j81475529605800_1_alg».proof.Proof.KernelSpec
import proofs.«116639_j81475529605800_1_alg».proof.Proof.RefValue
import Idealize.ShloMosaic.Lib.ValueLayout

set_option maxRecDepth 16384

noncomputable section

namespace Cert.Proof.Bridge

open Cert.GraphNet Cert.KernelIdeal.KSpec
open Idealize.ShloMosaic Idealize.ShloMosaic.ValueIdx

variable (x0 : Arr Cert.KernelIdeal.S100000x32 .f32) (x1 : Arr Cert.KernelIdeal.S50000x32 .f32) (x2 : Arr Cert.KernelIdeal.S2000000x8 .f32)
  (x3 x4 : Arr Cert.KernelIdeal.S2000000 .i32) (x5 : Arr Cert.KernelIdeal.S72x64 .f32) (x6 : Arr Cert.KernelIdeal.S64 .f32) (x7 : Arr Cert.KernelIdeal.S64x32 .f32)
  (x8 : Arr Cert.KernelIdeal.S32 .f32) (x9 : Arr Cert.KernelIdeal.S64x64 .f32) (x10 : Arr Cert.KernelIdeal.S64 .f32) (x11 : Arr Cert.KernelIdeal.S64x32 .f32)
  (x12 : Arr Cert.KernelIdeal.S32 .f32) (x13 : Arr Cert.KernelIdeal.S32x1 .f32) (x14 : Arr Cert.KernelIdeal.S1 .f32)

/-- Both programs gather the same rows of u. -/
theorem gatherU_eq : Cert.ReferenceIdeal.Read.val_main_v6 (F := Ideal) x0 x4 = gatheredU x0 x4 := rfl

/-- Both programs gather the same rows of v. -/
theorem gatherV_eq : Cert.ReferenceIdeal.Read.val_main_v13 (F := Ideal) x1 x3 = gatheredV x1 x3 := rfl

/-- Rows o .. o + 31 of a matrix with 64 columns, cut out, read at (a, k) as the matrix at (o + a, k). -/
theorem rows_of {n : Nat} (o : Nat) (X : Mat n 64) (h : (⟨2, ![n, 64]⟩ : Shape).Slices ![o, 0] ⟨2, ![32, 64]⟩)
    (a : Fin 32) (k : Fin 64) (r : Fin n) (hr : r.val = o + a.val) :
    X (ix2 r k) = extractStridedSlice ⟨2, ![32, 64]⟩ ![o, 0] X h (ix2 a k) :=
  (slice2_axis0_apply o X h a k r hr).symm

/-- The reference's edge stage is the kernel's edge network of the gathered features. -/
theorem edge_eq : Cert.ReferenceIdeal.Read.val_main_v24 (F := Ideal) x0 x1 x2 x3 x4 x5 x6 x7 x8 = edgeOfArgs x0 x1 x2 x3 x4 x5 x6 x7 x8 := by
  rw [Cert.ReferenceIdeal.RefValue.edge_stage]
  unfold edgeOfArgs
  refine edgeOut_eq_cat _ _ _ _ _ _ _ _ _ _ _ ?_ ?_ ?_ ?_ ?_ ?_
  · intro e a; rw [Cert.ReferenceIdeal.RefValue.cat_edge_x, gatherU_eq]
  · intro e a; rw [Cert.ReferenceIdeal.RefValue.cat_edge_y, gatherV_eq]
  · intro e a; rw [Cert.ReferenceIdeal.RefValue.cat_edge_z]
  · intro a k; exact rows_of 0 x5 _ a k _ (Nat.zero_add _).symm
  · intro a k; exact rows_of 32 x5 _ a k _ rfl
  · intro a k
    exact (slice2_axis0_apply 64 x5 Cert.KernelIdeal.Facts₀.slices_S72x64_S8x64_64_0 a k _ rfl).symm

/-- The reference's aggregate is the kernel's: one scatter-add of equal arrays. -/
theorem agg_eq : Cert.ReferenceIdeal.Read.val_main_v27 (F := Ideal) x0 x1 x2 x3 x4 x5 x6 x7 x8 = aggOfArgs x0 x1 x2 x3 x4 x5 x6 x7 x8 := by
  unfold Cert.ReferenceIdeal.Read.val_main_v27 aggOfArgs
  rw [edge_eq]
  rfl

/-- The reference's result is the kernel's result, as functions of the arguments. -/
theorem result_eq : Cert.ReferenceIdeal.Read.val_main_v48 (F := Ideal) x0 x1 x2 x3 x4 x5 x6 x7 x8 x9 x10 x11 x12 x13 x14 = resultOfArgs x0 x1 x2 x3 x4 x5 x6 x7 x8 x9 x10 x11 x12 x13 x14 := by
  rw [Cert.ReferenceIdeal.RefValue.node_stage]
  unfold resultOfArgs
  refine nodeOut_eq_cat _ _ _ _ _ _ _ _ _ _ _ ?_ ?_ ?_ ?_
  · intro n s; rw [Cert.ReferenceIdeal.RefValue.cat_node_u]
  · intro n s; rw [Cert.ReferenceIdeal.RefValue.cat_node_a, agg_eq]
  · intro s k; exact rows_of 0 x9 _ s k _ (Nat.zero_add _).symm
  · intro s k; exact rows_of 32 x9 _ s k _ rfl

end Cert.Proof.Bridge

end
-- ==== Proof.lean ====
/-
  The certificate of a two-stage graph network against its plain reference, over the extended reals.

  The network: every edge e carries the features of its destination node u[dst e], of its source node v[src e] and
  its own values; an edge MLP (two affine layers, each followed by a maximum with zero) maps the 72 numbers to 32;
  the edge outputs are summed into their destination nodes; a node MLP on the node's own features and that sum
  (two affine layers with maximum, one more affine layer, the logistic function) gives one number per node.

  The kernel program does the two MLPs as two pipelined kernel regions of 400 and 20 grid points over blocks of
  5000 rows, with the first weight matrix of each cut into row blocks outside the kernel so that no concatenation
  is needed inside; the gathers, the segment sum and the cuts are host operations around the regions.  The
  reference concatenates and multiplies whole matrices.

  What is proved here.  Each region's output array after its run is its network applied to the arrays the region
  was entered with (a block written back is a block of the network of the whole arrays, and the blocks tile the
  array); those arrays are read back through the host operations to the arguments; so the kernel's result is ONE
  function of the fifteen arguments.  The reference's result is read stage by stage as the same networks over
  concatenated rows.  The two agree because a sum over 72 (or 64) indices is the sum of its consecutive stretches
  and addition of extended reals is associative: no finiteness of the inputs is used, and the precondition is
  never opened.  The ideal pass rewrote nothing, so the preservation claim is trivially true; the three frame
  claims are the generated ones (the reference's being its generated run with the result dropped).
-/
import proofs.«116639_j81475529605800_1_alg».proof.Defs
import proofs.«116639_j81475529605800_1_alg».proof.Proof.Gen.Kernel
import proofs.«116639_j81475529605800_1_alg».proof.Proof.Gen.Kernel.Frame
import proofs.«116639_j81475529605800_1_alg».proof.Proof.Gen.KernelIdeal
import proofs.«116639_j81475529605800_1_alg».proof.Proof.Gen.KernelIdeal.Frame
import proofs.«116639_j81475529605800_1_alg».proof.Proof.Gen.ReferenceIdeal
import proofs.«116639_j81475529605800_1_alg».proof.Proof.Gen.ReferenceIdeal.Run
import proofs.«116639_j81475529605800_1_alg».proof.Proof.Gen.ReferenceIdeal.Read
import proofs.«116639_j81475529605800_1_alg».proof.Proof.Gen.Pre_finite_inputs
import proofs.«116639_j81475529605800_1_alg».proof.Proof.KernelResult
import proofs.«116639_j81475529605800_1_alg».proof.Proof.Bridge

set_option maxRecDepth 16384

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same result: the kernel's result buffer
    holds the network of the arguments (the two regions' values read back through the host operations), the
    reference's holds its composed term, and the two are one function of the arguments. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact (Cert.ReferenceIdeal.Read.val_main_v48_eq (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).trans
    (Cert.Proof.Bridge.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
